-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x20 : Shape := ⟨2, ![65536, 20]⟩
abbrev S65536x32 : Shape := ⟨2, ![65536, 32]⟩
abbrev S1024x20 : Shape := ⟨2, ![1024, 20]⟩
abbrev S_ : Shape := ⟨0, ![]⟩

class Facts : Prop where
  bcast_S_S65536x20 : S_.BroadcastsInDim S65536x20 (![] : Fin 0 → Fin S65536x20.rank)
  reducesTo_S65536x20_S_d0_1 : S65536x20.ReducesTo [0, 1] S_
  h_S_ : 0 < S_.numel
  bcast_S_S65536x32 : S_.BroadcastsInDim S65536x32 (![] : Fin 0 → Fin S65536x32.rank)
  reducesTo_S65536x32_S_d0_1 : S65536x32.ReducesTo [0, 1] S_
  bcast_S_S1024x20 : S_.BroadcastsInDim S1024x20 (![] : Fin 0 → Fin S1024x20.rank)
  reducesTo_S1024x20_S_d0_1 : S1024x20.ReducesTo [0, 1] S_

variable [Facts]

def fn {F : FTy → Type} [FloatOps F] (main_arg0 : FVec F S65536x20 .f32) (main_arg1 : FVec F S65536x32 .f32) (main_arg2 : FVec F S1024x20 .f32) : IVec S_ 1 :=
  let main_v0 : FVec F S65536x20 .f32 := Host.absf main_arg0
  let main_cst : FVec F S_ .f32 := constant S_ .f32 0x7F800000#32
  let main_v1 : FVec F S65536x20 .f32 := broadcastInDim S65536x20 ![] bcast_S_S65536x20 main_cst
  let main_v2 : IVec S65536x20 1 := cmpf .olt main_v0 main_v1
  let main_c : IVec S_ 1 := constantI S_ 1 1#1
  let main_v3 : IVec S_ 1 := (fun x v => Host.reduce IntOp.andi x v reducesTo_S65536x20_S_d0_1 h_S_) main_v2 main_c
  let main_v4 : FVec F S65536x32 .f32 := Host.absf main_arg1
  let main_cst_0 : FVec F S_ .f32 := constant S_ .f32 0x7F800000#32
  let main_v5 : FVec F S65536x32 .f32 := broadcastInDim S65536x32 ![] bcast_S_S65536x32 main_cst_0
  let main_v6 : IVec S65536x32 1 := cmpf .olt main_v4 main_v5
  let main_c_1 : IVec S_ 1 := constantI S_ 1 1#1
  let main_v7 : IVec S_ 1 := (fun x v => Host.reduce IntOp.andi x v reducesTo_S65536x32_S_d0_1 h_S_) main_v6 main_c_1
  let main_v8 : IVec S_ 1 := andi main_v3 main_v7
  let main_v9 : FVec F S1024x20 .f32 := Host.absf main_arg2
  let main_cst_2 : FVec F S_ .f32 := constant S_ .f32 0x7F800000#32
  let main_v10 : FVec F S1024x20 .f32 := broadcastInDim S1024x20 ![] bcast_S_S1024x20 main_cst_2
  let main_v11 : IVec S1024x20 1 := cmpf .olt main_v9 main_v10
  let main_c_3 : IVec S_ 1 := constantI S_ 1 1#1
  let main_v12 : IVec S_ 1 := (fun x v => Host.reduce IntOp.andi x v reducesTo_S1024x20_S_d0_1 h_S_) main_v11 main_c_3
  let main_v13 : IVec S_ 1 := andi main_v8 main_v12
  main_v13
-- ==== Kernel.lean ====
abbrev S65536x20 : Shape := ⟨2, ![65536, 20]⟩
abbrev S65536x32 : Shape := ⟨2, ![65536, 32]⟩
abbrev S1024x20 : Shape := ⟨2, ![1024, 20]⟩
abbrev S_ : Shape := ⟨0, ![]⟩
abbrev S65536x1 : Shape := ⟨2, ![65536, 1]⟩
abbrev S65536x33 : Shape := ⟨2, ![65536, 33]⟩
abbrev S1024x32 : Shape := ⟨2, ![1024, 32]⟩
abbrev S4096x20 : Shape := ⟨2, ![4096, 20]⟩
abbrev S4096x33 : Shape := ⟨2, ![4096, 33]⟩
abbrev S1024x1 : Shape := ⟨2, ![1024, 1]⟩
abbrev S1024x33 : Shape := ⟨2, ![1024, 33]⟩
abbrev S1024x4096 : Shape := ⟨2, ![1024, 4096]⟩
abbrev S1024 : Shape := ⟨1, ![1024]⟩

abbrev nBuf : Space → Nat
  | .hbm => 13
  | .vmem => 8
  | .smem => 0
  | _ => 0

abbrev bufTy : (tb : Table) → Fin (tcTables nBuf tb) → BufTy
  | .hbm, ⟨0, _⟩ => ⟨S65536x20, .f32⟩
  | .hbm, ⟨1, _⟩ => ⟨S65536x32, .f32⟩
  | .hbm, ⟨2, _⟩ => ⟨S1024x20, .f32⟩
  | .hbm, ⟨3, _⟩ => ⟨S_, .f32⟩
  | .hbm, ⟨4, _⟩ => ⟨S1024x20, .f32⟩
  | .hbm, ⟨5, _⟩ => ⟨S1024x20, .f32⟩
  | .hbm, ⟨6, _⟩ => ⟨S1024x20, .bf16⟩
  | .hbm, ⟨7, _⟩ => ⟨S65536x20, .bf16⟩
  | .hbm, ⟨8, _⟩ => ⟨S_, .f32⟩
  | .hbm, ⟨9, _⟩ => ⟨S65536x1, .f32⟩
  | .hbm, ⟨10, _⟩ => ⟨S65536x33, .f32⟩
  | .hbm, ⟨11, _⟩ => ⟨S65536x33, .bf16⟩
  | .hbm, ⟨12, _⟩ => ⟨S1024x32, .f32⟩
  | .local _ .vmem, ⟨0, _⟩ => ⟨S1024x20, .bf16⟩
  | .local _ .vmem, ⟨1, _⟩ => ⟨S4096x20, .bf16⟩
  | .local _ .vmem, ⟨2, _⟩ => ⟨S4096x20, .bf16⟩
  | .local _ .vmem, ⟨3, _⟩ => ⟨S4096x33, .bf16⟩
  | .local _ .vmem, ⟨4, _⟩ => ⟨S4096x33, .bf16⟩
  | .local _ .vmem, ⟨5, _⟩ => ⟨S1024x32, .f32⟩
  | .local _ .vmem, ⟨6, _⟩ => ⟨S1024x1, .f32⟩
  | .local _ .vmem, ⟨7, _⟩ => ⟨S1024x33, .f32⟩
  | _, _ => ⟨S65536x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x20 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x20 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x33 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S1024x20 : S_.BroadcastsInDim S1024x20 (![] : Fin 0 → Fin S1024x20.rank)
  bitsLt_bf16_f32 : FTy.bits .bf16 < FTy.bits .f32
  bcast_S_S65536x1 : S_.BroadcastsInDim S65536x1 (![] : Fin 0 → Fin S65536x1.rank)
  concatenates_S65536x32_S65536x1_S65536x33_d1 : Shape.Concatenates [S65536x32, S65536x1] S65536x33 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x33_S1024x33_0_0 : ∀ a, (![0, 0] : Fin 2 → Nat) a + S1024x33.size a ≤ S1024x33.size a
  h_S1024x33 : 0 < S1024x33.numel
  shapeCasts_S1024x33_S1024x33 : S1024x33.ShapeCasts S1024x33
  inb_S1024x20_S1024x20_0_0 : ∀ a, (![0, 0] : Fin 2 → Nat) a + S1024x20.size a ≤ S1024x20.size a
  h_S1024x20 : 0 < S1024x20.numel
  shapeCasts_S1024x20_S1024x20 : S1024x20.ShapeCasts S1024x20
  inb_S4096x20_S4096x20_0_0 : ∀ a, (![0, 0] : Fin 2 → Nat) a + S4096x20.size a ≤ S4096x20.size a
  h_S4096x20 : 0 < S4096x20.numel
  shapeCasts_S4096x20_S4096x20 : S4096x20.ShapeCasts S4096x20
  reduces_S1024x4096_S1024 : S1024x4096.Reduces [1] S1024
  shapeCasts_S1024_S1024x1 : S1024.ShapeCasts S1024x1
  broadcasts_S1024x1_S1024x4096 : S1024x1.Broadcasts S1024x4096
  inb_S4096x33_S4096x33_0_0 : ∀ a, (![0, 0] : Fin 2 → Nat) a + S4096x33.size a ≤ S4096x33.size a
  h_S4096x33 : 0 < S4096x33.numel
  shapeCasts_S4096x33_S4096x33 : S4096x33.ShapeCasts S4096x33
  broadcasts_S1024x1_S1024x33 : S1024x1.Broadcasts S1024x33
  slices_S1024x33_o0_0_S1024x32 : S1024x33.Slices ![0, 0] S1024x32
  slices_S1024x33_o0_32_S1024x1 : S1024x33.Slices ![0, 32] S1024x1
  broadcasts_S1024x1_S1024x32 : S1024x1.Broadcasts S1024x32
  inb_S1024x32_S1024x32_0_0 : ∀ a, (![0, 0] : Fin 2 → Nat) a + S1024x32.size a ≤ S1024x32.size a
  h_S1024x32 : 0 < S1024x32.numel
  dot_S1024x20_S4096x20_S1024x4096_1_1_0_0_n_n_wf : DotDims.WF S1024x20 S4096x20 S1024x4096 [1] [1] [0] [0] [] []
  dot_S1024x4096_S4096x33_S1024x33_1_0_0_1_n_n_wf : DotDims.WF S1024x4096 S4096x33 S1024x33 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x20.size a ≤ S1024x20.size a
  hwx0_0 : ∀ i : grid0.Coords, EltTy.bits .bf16 = 32 ∨ (Rect.block (s := S1024x20) S1024x20.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x20.size a ≤ S65536x20.size a
  hwx0_1 : ∀ i : grid0.Coords, EltTy.bits .bf16 = 32 ∨ (Rect.block (s := S65536x20) S4096x20.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x33.size a ≤ S65536x33.size a
  hwx0_2 : ∀ i : grid0.Coords, EltTy.bits .bf16 = 32 ∨ (Rect.block (s := S65536x33) S4096x33.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .f32 = 32 ∨ (Rect.block (s := S1024x32) S1024x32.size (cc0_transform_3 i) (hinb0_3 i)).WholeWords (EltTy.packing .f32)

variable [Facts₀]

def dot_S1024x20_S4096x20_S1024x4096_1_1_0_0_n_n : DotDims S1024x20 S4096x20 S1024x4096 where
  lhsContracting := [1]
  rhsContracting := [1]
  lhsNonContracting := [0]
  rhsNonContracting := [0]
  lhsBatch := []
  rhsBatch := []
  wf := dot_S1024x20_S4096x20_S1024x4096_1_1_0_0_n_n_wf
def dot_S1024x4096_S4096x33_S1024x33_1_0_0_1_n_n : DotDims S1024x4096 S4096x33 S1024x33 where
  lhsContracting := [1]
  rhsContracting := [0]
  lhsNonContracting := [0]
  rhsNonContracting := [1]
  lhsBatch := []
  rhsBatch := []
  wf := dot_S1024x4096_S4096x33_S1024x33_1_0_0_1_n_n_wf

abbrev win0_0 : Pipeline.Window sig grid0 :=
  Pipeline.Window.ofSpec (Memref.whole main_call0_v2) S1024x20.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S4096x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S4096x33.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x32.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x20 : Shape := ⟨2, ![65536, 20]⟩
abbrev S65536x32 : Shape := ⟨2, ![65536, 32]⟩
abbrev S1024x20 : Shape := ⟨2, ![1024, 20]⟩
abbrev S20x65536 : Shape := ⟨2, ![20, 65536]⟩
abbrev S1024x65536 : Shape := ⟨2, ![1024, 65536]⟩
abbrev S_ : Shape := ⟨0, ![]⟩
abbrev S1024 : Shape := ⟨1, ![1024]⟩
abbrev S1024x1 : Shape := ⟨2, ![1024, 1]⟩
abbrev S1024x32 : Shape := ⟨2, ![1024, 32]⟩

abbrev nBuf : Space → Nat
  | .hbm => 23
  | .vmem => 0
  | .smem => 0
  | _ => 0

abbrev bufTy : (tb : Table) → Fin (tcTables nBuf tb) → BufTy
  | .hbm, ⟨0, _⟩ => ⟨S65536x20, .f32⟩
  | .hbm, ⟨1, _⟩ => ⟨S65536x32, .f32⟩
  | .hbm, ⟨2, _⟩ => ⟨S1024x20, .f32⟩
  | .hbm, ⟨3, _⟩ => ⟨S20x65536, .f32⟩
  | .hbm, ⟨4, _⟩ => ⟨S1024x65536, .f32⟩
  | .hbm, ⟨5, _⟩ => ⟨S_, .f32⟩
  | .hbm, ⟨6, _⟩ => ⟨S1024x65536, .f32⟩
  | .hbm, ⟨7, _⟩ => ⟨S1024x65536, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024x1, .f32⟩
  | .hbm, ⟨14, _⟩ => ⟨S1024x65536, .f32⟩
  | .hbm, ⟨15, _⟩ => ⟨S1024x65536, .f32⟩
  | .hbm, ⟨16, _⟩ => ⟨S1024x65536, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x65536, .f32⟩
  | .hbm, ⟨21, _⟩ => ⟨S1024x65536, .f32⟩
  | .hbm, ⟨22, _⟩ => ⟨S1024x32, .f32⟩
  | _, _ => ⟨S65536x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S65536x20_S20x65536_1_0 : S65536x20.Transposes [1, 0] S20x65536
  bcast_S_S1024x65536 : S_.BroadcastsInDim S1024x65536 (![] : Fin 0 → Fin S1024x65536.rank)
  reducesTo_S1024x65536_S1024_d1 : S1024x65536.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x65536_0_1 : S1024x1.BroadcastsInDim S1024x65536 (![0, 1] : Fin 2 → Fin S1024x65536.rank)
  dot_S1024x20_S20x65536_S1024x65536_1_0_0_1_n_n_wf : DotDims.WF S1024x20 S20x65536 S1024x65536 [1] [0] [0] [1] [] []
  dot_S1024x65536_S65536x32_S1024x32_1_0_0_1_n_n_wf : DotDims.WF S1024x65536 S65536x32 S1024x32 [1] [0] [0] [1] [] []

variable [Facts₀]

def dot_S1024x20_S20x65536_S1024x65536_1_0_0_1_n_n : DotDims S1024x20 S20x65536 S1024x65536 where
  lhsContracting := [1]
  rhsContracting := [0]
  lhsNonContracting := [0]
  rhsNonContracting := [1]
  lhsBatch := []
  rhsBatch := []
  wf := dot_S1024x20_S20x65536_S1024x65536_1_0_0_1_n_n_wf
def dot_S1024x65536_S65536x32_S1024x32_1_0_0_1_n_n : DotDims S1024x65536 S65536x32 S1024x32 where
  lhsContracting := [1]
  rhsContracting := [0]
  lhsNonContracting := [0]
  rhsNonContracting := [1]
  lhsBatch := []
  rhsBatch := []
  wf := dot_S1024x65536_S65536x32_S1024x32_1_0_0_1_n_n_wf

class Facts : Prop extends Facts₀ where

variable [Facts]
-- ==== Proof.Pieces.lean ====
/-
  What each control case of the body leaves in the two carried scratch buffers and in the output block, as the body's
  stored values: the running maximum is the stored value `k0_pay5`, the accumulator `k0_pay6`, the output `k0_pay7` of
  the accumulator.  At the first grid point the scratch is first reset (−∞ and 0) and the same two values are stored
  over the reset contents.
-/
import proofs.«115970_g62380105007505_cont_9to1_m_337_6_alg».proof.Proof.Gen.KernelIdeal.Frame
import Idealize.ShloMosaic.Lib.Pipeline.Value

set_option maxRecDepth 16384

noncomputable section

namespace Cert.Flash

open Idealize.ShloMosaic Idealize.ShloMosaic.TcCoe Idealize.SL.Sem Cert.KernelIdeal Cert.KernelIdeal.Gen
open Idealize.ShloMosaic.Tactic

variable {F : FTy → Type} [FloatOps F]

/-- The offset pair `(0, 0)` is the zero offset: every store and load of the body is through the whole block. -/
private theorem hz2 : (![0, 0] : Fin 2 → ℕ) = fun _ => 0 := funext fun a => by fin_cases a <;> rfl

theorem sout_A_0 (c : Dev nD) (i : grid0.Coords) (arg1 : Memref sig .tc .vmem S1024x20 .bf16) (harg1 : arg1.IsWhole) (arg2 : Memref sig .tc .vmem S4096x20 .bf16) (harg2 : arg2.IsWhole) (arg3 : Memref sig .tc .vmem S4096x33 .bf16) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x33 .f32) (harg6 : arg6.IsWhole) (hc0 : cond0_0 i) (hc1 : ¬cond0_1 i) (x0 : Vec F S1024x20 .bf16) (x1 : Vec F S4096x20 .bf16) (x2 : Vec F S4096x33 .bf16) :
    sout0_A_0 c i arg1 harg1 arg2 harg2 arg3 harg3 arg4 harg4 arg5 harg5 arg6 harg6 hc0 hc1 x0 x1 x2 = k0_pay5 x0 x1 (k0_pay1 (F := F)) := by
  unfold sout0_A_0
  rw [View.read_writes_eq_canon _ _ _ (scover0_A_0 c i arg1 harg1 arg2 harg2 arg3 harg3 arg4 harg4 arg5 harg5 arg6 harg6 hc0 hc1 x0 x1 x2)]
  unfold kernelRun0_A
  dsimp only
  sl_unfold_words
  rw [View.canon_cons_unit_zero (S := S1024x1) hz2, View.readCov_unit_zero (S := S1024x1) _ hz2]
  simp only [View.readAt_eq_ld, harg1.read_unread, harg2.read_unread, harg3.read_unread, harg4.read_unread, harg5.read_unread, harg6.read_unread, View.ld_unit_zero (S := S1024x20) hz2, View.ld_unit_zero (S := S4096x20) hz2, View.ld_unit_zero (S := S4096x33) hz2, View.ld_unit_zero (S := S1024x1) hz2, View.ld_unit_zero (S := S1024x33) hz2, View.ld_unit_zero (S := S1024x32) hz2]

theorem sout_A_1 (c : Dev nD) (i : grid0.Coords) (arg1 : Memref sig .tc .vmem S1024x20 .bf16) (harg1 : arg1.IsWhole) (arg2 : Memref sig .tc .vmem S4096x20 .bf16) (harg2 : arg2.IsWhole) (arg3 : Memref sig .tc .vmem S4096x33 .bf16) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x33 .f32) (harg6 : arg6.IsWhole) (hc0 : cond0_0 i) (hc1 : ¬cond0_1 i) (x0 : Vec F S1024x20 .bf16) (x1 : Vec F S4096x20 .bf16) (x2 : Vec F S4096x33 .bf16) :
    sout0_A_1 c i arg1 harg1 arg2 harg2 arg3 harg3 arg4 harg4 arg5 harg5 arg6 harg6 hc0 hc1 x0 x1 x2 = k0_pay6 x0 x1 (k0_pay1 (F := F)) x2 (k0_pay2 (F := F)) := by
  unfold sout0_A_1
  rw [View.read_writes_eq_canon _ _ _ (scover0_A_1 c i arg1 harg1 arg2 harg2 arg3 harg3 arg4 harg4 arg5 harg5 arg6 harg6 hc0 hc1 x0 x1 x2)]
  unfold kernelRun0_A
  dsimp only
  sl_unfold_words
  rw [View.canon_cons_unit_zero (S := S1024x33) hz2]
  simp only [View.readAt_eq_ld, View.readCov_unit_zero (S := S1024x1) _ hz2, View.readCov_unit_zero (S := S1024x33) _ hz2, harg1.read_unread, harg2.read_unread, harg3.read_unread, harg4.read_unread, harg5.read_unread, harg6.read_unread, View.ld_unit_zero (S := S1024x20) hz2, View.ld_unit_zero (S := S4096x20) hz2, View.ld_unit_zero (S := S4096x33) hz2, View.ld_unit_zero (S := S1024x1) hz2, View.ld_unit_zero (S := S1024x33) hz2, View.ld_unit_zero (S := S1024x32) hz2]

theorem sout_B_0 (c : Dev nD) (i : grid0.Coords) (arg1 : Memref sig .tc .vmem S1024x20 .bf16) (harg1 : arg1.IsWhole) (arg2 : Memref sig .tc .vmem S4096x20 .bf16) (harg2 : arg2.IsWhole) (arg3 : Memref sig .tc .vmem S4096x33 .bf16) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x33 .f32) (harg6 : arg6.IsWhole) (hc0 : ¬cond0_0 i) (hc1 : ¬cond0_1 i) (x0 : Vec F S1024x20 .bf16) (x1 : Vec F S4096x20 .bf16) (x2 : Vec F S4096x33 .bf16) (xs0 : Vec F S1024x1 .f32) (xs1 : Vec F S1024x33 .f32) :
    sout0_B_0 c i arg1 harg1 arg2 harg2 arg3 harg3 arg4 harg4 arg5 harg5 arg6 harg6 hc0 hc1 x0 x1 x2 xs0 xs1 = k0_pay5 x0 x1 xs0 := by
  unfold sout0_B_0
  rw [View.read_writes_eq_canon _ _ _ (scover0_B_0 c i arg1 harg1 arg2 harg2 arg3 harg3 arg4 harg4 arg5 harg5 arg6 harg6 hc0 hc1 x0 x1 x2 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S1024x20) hz2, View.ld_unit_zero (S := S4096x20) hz2, View.ld_unit_zero (S := S4096x33) hz2, View.ld_unit_zero (S := S1024x1) hz2, View.ld_unit_zero (S := S1024x33) hz2, View.ld_unit_zero (S := S1024x32) hz2]

theorem sout_B_1 (c : Dev nD) (i : grid0.Coords) (arg1 : Memref sig .tc .vmem S1024x20 .bf16) (harg1 : arg1.IsWhole) (arg2 : Memref sig .tc .vmem S4096x20 .bf16) (harg2 : arg2.IsWhole) (arg3 : Memref sig .tc .vmem S4096x33 .bf16) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x33 .f32) (harg6 : arg6.IsWhole) (hc0 : ¬cond0_0 i) (hc1 : ¬cond0_1 i) (x0 : Vec F S1024x20 .bf16) (x1 : Vec F S4096x20 .bf16) (x2 : Vec F S4096x33 .bf16) (xs0 : Vec F S1024x1 .f32) (xs1 : Vec F S1024x33 .f32) :
    sout0_B_1 c i arg1 harg1 arg2 harg2 arg3 harg3 arg4 harg4 arg5 harg5 arg6 harg6 hc0 hc1 x0 x1 x2 xs0 xs1 = k0_pay6 x0 x1 xs0 x2 xs1 := by
  unfold sout0_B_1
  rw [View.read_writes_eq_canon _ _ _ (scover0_B_1 c i arg1 harg1 arg2 harg2 arg3 harg3 arg4 harg4 arg5 harg5 arg6 harg6 hc0 hc1 x0 x1 x2 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S1024x20) hz2, View.ld_unit_zero (S := S4096x20) hz2, View.ld_unit_zero (S := S4096x33) hz2, View.ld_unit_zero (S := S1024x1) hz2, View.ld_unit_zero (S := S1024x33) hz2, View.ld_unit_zero (S := S1024x32) hz2]

theorem sout_C_0 (c : Dev nD) (i : grid0.Coords) (arg1 : Memref sig .tc .vmem S1024x20 .bf16) (harg1 : arg1.IsWhole) (arg2 : Memref sig .tc .vmem S4096x20 .bf16) (harg2 : arg2.IsWhole) (arg3 : Memref sig .tc .vmem S4096x33 .bf16) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x33 .f32) (harg6 : arg6.IsWhole) (hc0 : ¬cond0_0 i) (hc1 : cond0_1 i) (x0 : Vec F S1024x20 .bf16) (x1 : Vec F S4096x20 .bf16) (x2 : Vec F S4096x33 .bf16) (xs0 : Vec F S1024x1 .f32) (xs1 : Vec F S1024x33 .f32) :
    sout0_C_0 c i arg1 harg1 arg2 harg2 arg3 harg3 arg4 harg4 arg5 harg5 arg6 harg6 hc0 hc1 x0 x1 x2 xs0 xs1 = k0_pay5 x0 x1 xs0 := by
  unfold sout0_C_0
  rw [View.read_writes_eq_canon _ _ _ (scover0_C_0 c i arg1 harg1 arg2 harg2 arg3 harg3 arg4 harg4 arg5 harg5 arg6 harg6 hc0 hc1 x0 x1 x2 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, View.ld_unit_zero (S := S1024x20) hz2, View.ld_unit_zero (S := S4096x20) hz2, View.ld_unit_zero (S := S4096x33) hz2, View.ld_unit_zero (S := S1024x1) hz2, View.ld_unit_zero (S := S1024x33) hz2, View.ld_unit_zero (S := S1024x32) hz2]

theorem sout_C_1 (c : Dev nD) (i : grid0.Coords) (arg1 : Memref sig .tc .vmem S1024x20 .bf16) (harg1 : arg1.IsWhole) (arg2 : Memref sig .tc .vmem S4096x20 .bf16) (harg2 : arg2.IsWhole) (arg3 : Memref sig .tc .vmem S4096x33 .bf16) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x33 .f32) (harg6 : arg6.IsWhole) (hc0 : ¬cond0_0 i) (hc1 : cond0_1 i) (x0 : Vec F S1024x20 .bf16) (x1 : Vec F S4096x20 .bf16) (x2 : Vec F S4096x33 .bf16) (xs0 : Vec F S1024x1 .f32) (xs1 : Vec F S1024x33 .f32) :
    sout0_C_1 c i arg1 harg1 arg2 harg2 arg3 harg3 arg4 harg4 arg5 harg5 arg6 harg6 hc0 hc1 x0 x1 x2 xs0 xs1 = k0_pay6 x0 x1 xs0 x2 xs1 := by
  unfold sout0_C_1
  rw [View.read_writes_eq_canon _ _ _ (scover0_C_1 c i arg1 harg1 arg2 harg2 arg3 harg3 arg4 harg4 arg5 harg5 arg6 harg6 hc0 hc1 x0 x1 x2 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, View.ld_unit_zero (S := S1024x20) hz2, View.ld_unit_zero (S := S4096x20) hz2, View.ld_unit_zero (S := S4096x33) hz2, View.ld_unit_zero (S := S1024x1) hz2, View.ld_unit_zero (S := S1024x33) hz2, View.ld_unit_zero (S := S1024x32) hz2]

theorem out_C_3 (c : Dev nD) (i : grid0.Coords) (arg1 : Memref sig .tc .vmem S1024x20 .bf16) (harg1 : arg1.IsWhole) (arg2 : Memref sig .tc .vmem S4096x20 .bf16) (harg2 : arg2.IsWhole) (arg3 : Memref sig .tc .vmem S4096x33 .bf16) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x33 .f32) (harg6 : arg6.IsWhole) (hc0 : ¬cond0_0 i) (hc1 : cond0_1 i) (x0 : Vec F S1024x20 .bf16) (x1 : Vec F S4096x20 .bf16) (x2 : Vec F S4096x33 .bf16) (xs0 : Vec F S1024x1 .f32) (xs1 : Vec F S1024x33 .f32) :
    out0_C_3 c i arg1 harg1 arg2 harg2 arg3 harg3 arg4 harg4 arg5 harg5 arg6 harg6 hc0 hc1 x0 x1 x2 xs0 xs1 = k0_pay7 (k0_pay6 x0 x1 xs0 x2 xs1) := by
  unfold out0_C_3
  rw [View.read_writes_eq_canon _ _ _ (cover0_C_3 c i arg1 harg1 arg2 harg2 arg3 harg3 arg4 harg4 arg5 harg5 arg6 harg6 hc0 hc1 x0 x1 x2 xs0 xs1)]
  unfold kernelRun0_C
  dsimp only
  sl_unfold_words
  rw [View.canon_unit_zero hz2]
  simp only [View.readAt_eq_ld, View.readCov_unit_zero (S := S1024x1) _ hz2, View.readCov_unit_zero (S := S1024x33) _ hz2, harg1.read_unread, harg2.read_unread, harg3.read_unread, harg4.read_unread, harg5.read_unread, harg6.read_unread, View.ld_unit_zero (S := S1024x20) hz2, View.ld_unit_zero (S := S4096x20) hz2, View.ld_unit_zero (S := S4096x33) hz2, View.ld_unit_zero (S := S1024x1) hz2, View.ld_unit_zero (S := S1024x33) hz2, View.ld_unit_zero (S := S1024x32) hz2]

end Cert.Flash

end
-- ==== Proof.RealBridge.lean ====
/-
  Between the extended reals and the reals.

  Every quantity of the two programs is, under the precondition, the cast of a real number.  This module has the few
  facts that carry a computation on casts back to the reals: the maximum of finitely many reals taken as the
  extended-real fold of `max` from −∞ (which is how both programs take a row maximum) is the cast of a real, and the cast
  of a finite sum is the sum of the casts.
-/
import Idealize.ShloMosaic.PureOps.Ideal
import Idealize.ShloMosaic.PureOps.Ideal.Laws

noncomputable section

open scoped BigOperators

namespace Cert.Flash

/-- The maximum of a finite family of reals, read off the extended-real fold of `max` from −∞. -/
def emax {ι : Type*} [Fintype ι] (g : ι → ℝ) : ℝ :=
  ((Finset.univ : Finset ι).fold max (⊥ : EReal) (fun i => (g i : EReal))).toReal

/-- Over a nonempty family that fold is a real number: it is below +∞ because every member is, and above −∞ because it
    dominates a member. -/
theorem coe_emax {ι : Type*} [Fintype ι] [Nonempty ι] (g : ι → ℝ) :
    ((emax g : ℝ) : EReal) = (Finset.univ : Finset ι).fold max (⊥ : EReal) (fun i => (g i : EReal)) := by
  unfold emax
  refine EReal.coe_toReal ?_ ?_
  · refine ne_of_lt ?_
    rw [Finset.fold_max_lt]
    exact ⟨bot_lt_top, fun i _ => EReal.coe_lt_top _⟩
  · obtain ⟨i0⟩ := ‹Nonempty ι›
    refine ne_of_gt (lt_of_lt_of_le (EReal.bot_lt_coe (g i0)) ?_)
    rw [Finset.le_fold_max]
    exact Or.inr ⟨i0, Finset.mem_univ _, le_rfl⟩

/-- The cast of a finite sum of reals is the sum of the casts. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

end Cert.Flash

end
-- ==== Proof.OnlineSoftmax.lean ====
/-
  The algebra of the streamed softmax, over the real numbers.

  A row of scores is cut into blocks of equal length.  The streaming computation keeps, after block `t`, one real
  `μ t` (any real will do: in the program it is the running maximum) and an accumulator
  `acc t = acc (t-1) · exp (μ (t-1) − μ t) + Σ_i exp (s t i − μ t) · w t i`.
  Because `exp (x − a) · exp (a − b) = exp (x − b)`, the accumulator after block `t` is the sum over all blocks so far of
  `exp (s u i − μ t) · w u i`.  A quotient of two such accumulators (the second with all weights one) does not depend on
  the reference point `μ t`, and is the softmax-weighted mean of the weights.
-/
import Idealize.ShloMosaic.PureOps.Ideal
import Mathlib.Algebra.BigOperators.Fin
import Mathlib.Logic.Equiv.Fin.Basic
import Mathlib.Data.Fintype.BigOperators

noncomputable section

open scoped BigOperators

namespace Cert.Flash

/-- The accumulator after block `t`: the previous one rescaled to the new reference point, plus this block's terms. -/
def accR {n : ℕ} (s w : ℕ → Fin n → ℝ) (μ : ℕ → ℝ) : ℕ → ℝ
  | 0 => ∑ i, Real.exp (s 0 i - μ 0) * w 0 i
  | t + 1 => accR s w μ t * Real.exp (μ t - μ (t + 1)) + ∑ i, Real.exp (s (t + 1) i - μ (t + 1)) * w (t + 1) i

theorem accR_zero {n : ℕ} (s w : ℕ → Fin n → ℝ) (μ : ℕ → ℝ) :
    accR s w μ 0 = ∑ i, Real.exp (s 0 i - μ 0) * w 0 i := rfl

theorem accR_succ {n : ℕ} (s w : ℕ → Fin n → ℝ) (μ : ℕ → ℝ) (t : ℕ) :
    accR s w μ (t + 1) = accR s w μ t * Real.exp (μ t - μ (t + 1)) + ∑ i, Real.exp (s (t + 1) i - μ (t + 1)) * w (t + 1) i := rfl

/-- After block `t` the accumulator is the sum, over every block so far, of the block's terms taken at the current
    reference point. -/
theorem accR_closed {n : ℕ} (s w : ℕ → Fin n → ℝ) (μ : ℕ → ℝ) (t : ℕ) :
    accR s w μ t = ∑ u ∈ Finset.range (t + 1), ∑ i, Real.exp (s u i - μ t) * w u i := by
  induction t with
  | zero => simp [accR]
  | succ t ih =>
    rw [accR_succ, ih, Finset.sum_range_succ _ (t + 1), Finset.sum_mul]
    congr 1
    refine Finset.sum_congr rfl fun u _ => ?_
    rw [Finset.sum_mul]
    refine Finset.sum_congr rfl fun i _ => ?_
    rw [mul_right_comm, ← Real.exp_add]
    congr 2
    ring

/-- Row `i` of block `u` of an array of 65536 rows cut into 16 blocks of 4096. -/
def rowOf (u : ℕ) (i : Fin 4096) : Fin 65536 := ⟨(u * 4096 + i.val) % 65536, Nat.mod_lt _ (by norm_num)⟩

theorem rowOf_val (u : ℕ) (hu : u < 16) (i : Fin 4096) : (rowOf u i).val = u * 4096 + i.val := by
  have := i.isLt
  show (u * 4096 + i.val) % 65536 = _
  omega

/-- Summing block by block over the 16 blocks is summing over all 65536 rows. -/
theorem sum_blocks (f : Fin 65536 → ℝ) :
    ∑ u ∈ Finset.range 16, ∑ i : Fin 4096, f (rowOf u i) = ∑ j, f j := by
  rw [Finset.sum_range (fun u => ∑ i : Fin 4096, f (rowOf u i))]
  rw [← Fintype.sum_prod_type' (fun (u : Fin 16) (i : Fin 4096) => f (rowOf u.val i))]
  refine Fintype.sum_equiv (finProdFinEquiv : Fin 16 × Fin 4096 ≃ Fin 65536) _ _ fun p => ?_
  congr 1
  apply Fin.ext
  rw [rowOf_val _ p.1.isLt]
  simp only [finProdFinEquiv, Equiv.coe_fn_mk]
  omega

/-- The streamed quotient is the softmax-weighted mean, whatever reference points were used on either side. -/
theorem flash_eq_softmax (σ W : Fin 65536 → ℝ) (μ : ℕ → ℝ) (M : ℝ) :
    accR (fun u i => σ (rowOf u i)) (fun u i => W (rowOf u i)) μ 15
        / accR (fun u i => σ (rowOf u i)) (fun _ _ => 1) μ 15
      = ∑ j, Real.exp (σ j - M) / (∑ k, Real.exp (σ k - M)) * W j := by
  rw [accR_closed, accR_closed]
  rw [sum_blocks (fun j => Real.exp (σ j - μ 15) * W j), sum_blocks (fun j => Real.exp (σ j - μ 15) * 1)]
  have hc : ∀ j, Real.exp (σ j - μ 15) = Real.exp (M - μ 15) * Real.exp (σ j - M) := fun j => by
    rw [← Real.exp_add]; congr 1; ring
  simp only [hc, mul_one, mul_assoc, ← Finset.mul_sum]
  rw [mul_div_mul_left _ _ (Real.exp_pos _).ne', Finset.sum_div]
  refine Finset.sum_congr rfl fun j _ => ?_
  rw [div_mul_eq_mul_div]

/-- The denominator accumulator is positive: a sum of exponentials over at least one block of positive length. -/
theorem accR_one_pos (s : ℕ → Fin 4096 → ℝ) (μ : ℕ → ℝ) (t : ℕ) : 0 < accR s (fun _ _ => 1) μ t := by
  rw [accR_closed]
  refine Finset.sum_pos (fun u _ => Finset.sum_pos (fun i _ => by positivity) ⟨⟨0, by norm_num⟩, Finset.mem_univ _⟩) ⟨0, by simp⟩

end Cert.Flash

end
-- ==== Proof.Spec.lean ====
/-
  The real-number model shared by the kernel side and the reference side.

  `score a k q j` is the temperature-scaled dot product of query row `q` with memory row `j` (the factor 10 is folded into
  the query, as the streamed program does); `vext` is the value table with a column of ones appended (column 32), whose
  weighted sum is the softmax denominator; `bscore` is a score inside one block of 4096 memory rows.
-/
import proofs.«115970_g62380105007505_cont_9to1_m_337_6_alg».proof.Proof.RealBridge
import proofs.«115970_g62380105007505_cont_9to1_m_337_6_alg».proof.Proof.OnlineSoftmax

noncomputable section

open scoped BigOperators

namespace Cert.Flash

/-- The scaled score of query `q` against memory row `j`. -/
def score (aR : Fin 1024 → Fin 20 → ℝ) (kR : Fin 65536 → Fin 20 → ℝ) (q : Fin 1024) (j : Fin 65536) : ℝ :=
  ∑ d, (aR q d * 10) * kR j d

/-- The value table with the column of ones appended. -/
def vext (vR : Fin 65536 → Fin 32 → ℝ) (j : Fin 65536) (c : Fin 33) : ℝ :=
  if h : c.val < 32 then vR j ⟨c.val, h⟩ else 1

theorem vext_castSucc (vR : Fin 65536 → Fin 32 → ℝ) (j : Fin 65536) (c : Fin 32) : vext vR j (Fin.castSucc c) = vR j c := by
  unfold vext; rw [dif_pos (by simp)]; rfl

theorem vext_last (vR : Fin 65536 → Fin 32 → ℝ) (j : Fin 65536) : vext vR j (Fin.last 32) = 1 := by
  unfold vext; rw [dif_neg (by simp)]

/-- A score inside one block: query row `q` (already scaled) against the block's row `i`. -/
def bscore (a : Fin 1024 → Fin 20 → ℝ) (k : Fin 4096 → Fin 20 → ℝ) (q : Fin 1024) (i : Fin 4096) : ℝ :=
  ∑ d, a q d * k i d

end Cert.Flash

end
-- ==== Proof.LibKeepdims.lean ====
/-
  Column ("keepdims") layouts read at an index, and a row sum read at an index, generic in the sizes.

  A row-wise reduction that keeps its axis produces an `[a]` vector viewed as an `[a, 1]` column; the column is then
  viewed as a `[1, a]` row, or spread over the columns of an `[a, b]` matrix.  Each of these reads ONE entry of
  its operand at each index of its result:
    · `[a] → [a, 1]` at (i, u) reads the operand at i;
    · `[a, 1] → [1, a]` at (u, i) reads the operand at (i, 0);
    · `[a, 1] → [a, b]` (a broadcast) at (i, j) reads the operand at (i, 0);
  and a sum of an `[a, b]` matrix along its second axis, read at i over the extended reals, is the sum over the b
  columns of the entries of row i.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both have row-major
    position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of an `[a, b]` matrix along its second axis, read at `i`, is the sum over the `b`
    columns of row `i`'s entries (the accumulator word being the sum's neutral element). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun d => Fin.ext (by
      match d with
      | ⟨0, _⟩ => rfl
      | ⟨1, _⟩ => rfl)))

end Cert.LibKeepdims

end
-- ==== Proof.Payloads.lean ====
/-
  The body's stored values read at an index, over real operands.
-/
import proofs.«115970_g62380105007505_cont_9to1_m_337_6_alg».proof.Proof.Gen.KernelIdeal.Skeleton
import proofs.«115970_g62380105007505_cont_9to1_m_337_6_alg».proof.Proof.Spec
import proofs.«115970_g62380105007505_cont_9to1_m_337_6_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Flash

open Idealize.ShloMosaic Idealize.ShloMosaic.ValueIdx Cert.KernelIdeal Cert.KernelIdeal.Gen

/-! ### The score product: contraction over axis 1 of both operands -/

private theorem lhs_s_0 (i : S1024x4096.Idx) (κ : dot_S1024x20_S4096x20_S1024x4096_1_1_0_0_n_n.contr.Idx) :
    (dot_S1024x20_S4096x20_S1024x4096_1_1_0_0_n_n.lhsIdx i κ 0).val = (i 0).val := by
  unfold DotDims.lhsIdx
  rw [dif_neg (show ¬(0 : Fin S1024x20.rank) ∈ dot_S1024x20_S4096x20_S1024x4096_1_1_0_0_n_n.lhsBatch by decide), dif_pos (show (0 : Fin S1024x20.rank) ∈ dot_S1024x20_S4096x20_S1024x4096_1_1_0_0_n_n.lhsNonContracting by decide)]
  rfl
private theorem lhs_s_1 (i : S1024x4096.Idx) (κ : dot_S1024x20_S4096x20_S1024x4096_1_1_0_0_n_n.contr.Idx) :
    (dot_S1024x20_S4096x20_S1024x4096_1_1_0_0_n_n.lhsIdx i κ 1).val = (κ ⟨0, by decide⟩).val :=
  dot_S1024x20_S4096x20_S1024x4096_1_1_0_0_n_n.lhsIdx_val_of_single rfl i κ
private theorem rhs_s_0 (i : S1024x4096.Idx) (κ : dot_S1024x20_S4096x20_S1024x4096_1_1_0_0_n_n.contr.Idx) :
    (dot_S1024x20_S4096x20_S1024x4096_1_1_0_0_n_n.rhsIdx i κ 0).val = (i 1).val := by
  unfold DotDims.rhsIdx
  rw [dif_neg (show ¬(0 : Fin S4096x20.rank) ∈ dot_S1024x20_S4096x20_S1024x4096_1_1_0_0_n_n.rhsBatch by decide), dif_pos (show (0 : Fin S4096x20.rank) ∈ dot_S1024x20_S4096x20_S1024x4096_1_1_0_0_n_n.rhsNonContracting by decide)]
  rfl
private theorem rhs_s_1 (i : S1024x4096.Idx) (κ : dot_S1024x20_S4096x20_S1024x4096_1_1_0_0_n_n.contr.Idx) :
    (dot_S1024x20_S4096x20_S1024x4096_1_1_0_0_n_n.rhsIdx i κ 1).val = (κ ⟨0, by decide⟩).val :=
  dot_S1024x20_S4096x20_S1024x4096_1_1_0_0_n_n.rhsIdx_val_of_single rfl i κ

/-- The score block at (q, i): row q of the left operand against row i of the right one. -/
private theorem pay3_apply (x0 : FVec Ideal S1024x20 .bf16) (x1 : FVec Ideal S4096x20 .bf16) (q : Fin 1024) (i : Fin 4096) :
    k0_pay3 (F := Ideal) x0 x1 (ix2 q i) = ∑ d : Fin 20, x0 (ix2 q d) * x1 (ix2 i d) := by
  unfold k0_pay3
  rw [shapeCast_self, shapeCast_self]
  simp only [matmul]
  rw [Ideal.matmul_constant_zero_apply, ← Equiv.sum_comp (ValueIdx.contrEquiv1 dot_S1024x20_S4096x20_S1024x4096_1_1_0_0_n_n 20 rfl rfl).symm]
  refine Finset.sum_congr rfl fun d _ => ?_
  have hk := ValueIdx.contrEquiv1_symm_val dot_S1024x20_S4096x20_S1024x4096_1_1_0_0_n_n 20 rfl rfl d
  have el : dot_S1024x20_S4096x20_S1024x4096_1_1_0_0_n_n.lhsIdx (ix2 q i) ((ValueIdx.contrEquiv1 dot_S1024x20_S4096x20_S1024x4096_1_1_0_0_n_n 20 rfl rfl).symm d) = ix2 q d := funext fun a => Fin.ext (by
    match a with
    | ⟨0, _⟩ => exact lhs_s_0 _ _
    | ⟨1, _⟩ => exact (lhs_s_1 _ _).trans hk)
  have er : dot_S1024x20_S4096x20_S1024x4096_1_1_0_0_n_n.rhsIdx (ix2 q i) ((ValueIdx.contrEquiv1 dot_S1024x20_S4096x20_S1024x4096_1_1_0_0_n_n 20 rfl rfl).symm d) = ix2 i d := funext fun a => Fin.ext (by
    match a with
    | ⟨0, _⟩ => exact rhs_s_0 _ _
    | ⟨1, _⟩ => exact (rhs_s_1 _ _).trans hk)
  rw [el, er]

/-! ### The row maximum -/

/-- The word 0xFF800000 is −∞. -/
private theorem ofBits_neg_inf : FloatOps.ofBits (F := Ideal) .f32 0xFF800000#32 = (⊥ : EReal) := by
  show Ideal.ofBits .f32 0xFF800000#32 = ⊥
  simp [Ideal.ofBits, Ideal.ieee]

/-- The maximum of an `[a, b]` matrix along its second axis, read at `i`: the fold of `max` from −∞ over the `b` entries of
    row `i`. -/
private theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec (FTy.bits .f32)) = FKind.maximumf.neutral .f32 hφ) (i : Fin a) :
    multiReduction .maximumf [1] ⟨1, ![a]⟩ src 0xFF800000#32 h hφ hacc (ix1 i)
      = (Finset.univ : Finset (Fin b)).fold max (⊥ : EReal) (fun k => src (ix2 i k)) := by
  refine (Ideal.multiReduction_maximumf_single src 0xFF800000#32 h hφ hacc (ix1 i)).trans ?_
  rw [ofBits_neg_inf]
  exact Finset.fold_congr fun k _ => congrArg src (funext fun d => Fin.ext (by
    match d with
    | ⟨0, _⟩ => rfl
    | ⟨1, _⟩ => rfl))

/-- The new reference point at (q, z): the larger of the old one and the block's row maximum. -/
private theorem pay4_apply (x0 : FVec Ideal S1024x20 .bf16) (x1 : FVec Ideal S4096x20 .bf16) (xs0 : FVec Ideal S1024x1 .f32)
    (q : Fin 1024) (z : Fin 1) :
    k0_pay4 (F := Ideal) x0 x1 xs0 (ix2 q z)
      = max (xs0 (ix2 q z)) ((Finset.univ : Finset (Fin 4096)).fold max (⊥ : EReal) (fun i => k0_pay3 (F := Ideal) x0 x1 (ix2 q i))) := by
  unfold k0_pay4
  refine congrArg (max (xs0 (ix2 q z))) ?_
  refine (Cert.LibKeepdims.shapeCast_a_a1_apply _ shapeCasts_S1024_S1024x1 q z).trans ?_
  exact rowMax_apply (k0_pay3 (F := Ideal) x0 x1) reduces_S1024x4096_S1024 _ _ q

private theorem pay5_apply (x0 : FVec Ideal S1024x20 .bf16) (x1 : FVec Ideal S4096x20 .bf16) (xs0 : FVec Ideal S1024x1 .f32)
    (q : Fin 1024) (z : Fin 1) :
    k0_pay5 (F := Ideal) x0 x1 xs0 (ix2 q z)
      = max (xs0 (ix2 q z)) ((Finset.univ : Finset (Fin 4096)).fold max (⊥ : EReal) (fun i => k0_pay3 (F := Ideal) x0 x1 (ix2 q i))) := by
  unfold k0_pay5
  rw [shapeCast_self]
  exact pay4_apply x0 x1 xs0 q z

/-! ### Over real operands -/

/-- The score block over casts of reals is the cast of the block score. -/
private theorem pay3_real (x0 : FVec Ideal S1024x20 .bf16) (x1 : FVec Ideal S4096x20 .bf16)
    (a : Fin 1024 → Fin 20 → ℝ) (k : Fin 4096 → Fin 20 → ℝ)
    (h0 : ∀ q d, x0 (ix2 q d) = ((a q d : ℝ) : EReal)) (h1 : ∀ i d, x1 (ix2 i d) = ((k i d : ℝ) : EReal))
    (q : Fin 1024) (i : Fin 4096) :
    k0_pay3 (F := Ideal) x0 x1 (ix2 q i) = ((bscore a k q i : ℝ) : EReal) := by
  rw [pay3_apply]
  unfold bscore
  rw [coe_sum]
  refine Finset.sum_congr rfl fun d _ => ?_
  rw [h0, h1, EReal.coe_mul]

/-- The block's row maximum over casts of reals is the cast of the maximum. -/
private theorem rowmax_real (x0 : FVec Ideal S1024x20 .bf16) (x1 : FVec Ideal S4096x20 .bf16)
    (a : Fin 1024 → Fin 20 → ℝ) (k : Fin 4096 → Fin 20 → ℝ)
    (h0 : ∀ q d, x0 (ix2 q d) = ((a q d : ℝ) : EReal)) (h1 : ∀ i d, x1 (ix2 i d) = ((k i d : ℝ) : EReal))
    (q : Fin 1024) :
    (Finset.univ : Finset (Fin 4096)).fold max (⊥ : EReal) (fun i => k0_pay3 (F := Ideal) x0 x1 (ix2 q i))
      = ((emax (bscore a k q) : ℝ) : EReal) := by
  haveI : Nonempty (Fin 4096) := ⟨⟨0, by norm_num⟩⟩
  rw [coe_emax]
  exact Finset.fold_congr fun i _ => pay3_real x0 x1 a k h0 h1 q i

/-- The cast of the larger of two reals is the larger of the casts. -/
private theorem coe_max (x y : ℝ) : ((max x y : ℝ) : EReal) = max (x : EReal) (y : EReal) :=
  EReal.coe_strictMono.monotone.map_max

/-- The −∞ splat reads −∞ everywhere. -/
private theorem pay1_apply (j : S1024x1.Idx) : k0_pay1 (F := Ideal) j = (⊥ : EReal) := by
  unfold k0_pay1
  rw [shapeCast_self]
  exact ofBits_neg_inf

/-- The zero splat reads 0 everywhere. -/
private theorem pay2_apply (j : S1024x33.Idx) : k0_pay2 (F := Ideal) j = (0 : EReal) := by
  unfold k0_pay2
  rw [shapeCast_self]
  exact Ideal.ofBits_zero_f32

/-! ### The weighted product: a plain rows-by-columns contraction -/

private theorem lhs_p_0 (i : S1024x33.Idx) (κ : dot_S1024x4096_S4096x33_S1024x33_1_0_0_1_n_n.contr.Idx) :
    (dot_S1024x4096_S4096x33_S1024x33_1_0_0_1_n_n.lhsIdx i κ 0).val = (i 0).val := by
  unfold DotDims.lhsIdx
  rw [dif_neg (show ¬(0 : Fin S1024x4096.rank) ∈ dot_S1024x4096_S4096x33_S1024x33_1_0_0_1_n_n.lhsBatch by decide), dif_pos (show (0 : Fin S1024x4096.rank) ∈ dot_S1024x4096_S4096x33_S1024x33_1_0_0_1_n_n.lhsNonContracting by decide)]
  rfl
private theorem lhs_p_1 (i : S1024x33.Idx) (κ : dot_S1024x4096_S4096x33_S1024x33_1_0_0_1_n_n.contr.Idx) :
    (dot_S1024x4096_S4096x33_S1024x33_1_0_0_1_n_n.lhsIdx i κ 1).val = (κ ⟨0, by decide⟩).val :=
  dot_S1024x4096_S4096x33_S1024x33_1_0_0_1_n_n.lhsIdx_val_of_single rfl i κ
private theorem rhs_p_0 (i : S1024x33.Idx) (κ : dot_S1024x4096_S4096x33_S1024x33_1_0_0_1_n_n.contr.Idx) :
    (dot_S1024x4096_S4096x33_S1024x33_1_0_0_1_n_n.rhsIdx i κ 0).val = (κ ⟨0, by decide⟩).val :=
  dot_S1024x4096_S4096x33_S1024x33_1_0_0_1_n_n.rhsIdx_val_of_single rfl i κ
private theorem rhs_p_1 (i : S1024x33.Idx) (κ : dot_S1024x4096_S4096x33_S1024x33_1_0_0_1_n_n.contr.Idx) :
    (dot_S1024x4096_S4096x33_S1024x33_1_0_0_1_n_n.rhsIdx i κ 1).val = (i 1).val := by
  unfold DotDims.rhsIdx
  rw [dif_neg (show ¬(1 : Fin S4096x33.rank) ∈ dot_S1024x4096_S4096x33_S1024x33_1_0_0_1_n_n.rhsBatch by decide), dif_pos (show (1 : Fin S4096x33.rank) ∈ dot_S1024x4096_S4096x33_S1024x33_1_0_0_1_n_n.rhsNonContracting by decide)]
  rfl

/-- The weighted product into the zero accumulator at (q, c): row q of the weights against column c of the values. -/
private theorem pv_apply (p : FVec Ideal S1024x4096 .bf16) (v : FVec Ideal S4096x33 .bf16) (q : Fin 1024) (c : Fin 33) :
    matmul dot_S1024x4096_S4096x33_S1024x33_1_0_0_1_n_n none p v (constant (F := Ideal) S1024x33 .f32 0x00000000#32) (ix2 q c)
      = ∑ i : Fin 4096, p (ix2 q i) * v (ix2 i c) := by
  simp only [matmul]
  rw [Ideal.matmul_constant_zero_apply, ← Equiv.sum_comp (ValueIdx.contrEquiv1 dot_S1024x4096_S4096x33_S1024x33_1_0_0_1_n_n 4096 rfl rfl).symm]
  refine Finset.sum_congr rfl fun i _ => ?_
  have hk := ValueIdx.contrEquiv1_symm_val dot_S1024x4096_S4096x33_S1024x33_1_0_0_1_n_n 4096 rfl rfl i
  have el : dot_S1024x4096_S4096x33_S1024x33_1_0_0_1_n_n.lhsIdx (ix2 q c) ((ValueIdx.contrEquiv1 dot_S1024x4096_S4096x33_S1024x33_1_0_0_1_n_n 4096 rfl rfl).symm i) = ix2 q i := funext fun a => Fin.ext (by
    match a with
    | ⟨0, _⟩ => exact lhs_p_0 _ _
    | ⟨1, _⟩ => exact (lhs_p_1 _ _).trans hk)
  have er : dot_S1024x4096_S4096x33_S1024x33_1_0_0_1_n_n.rhsIdx (ix2 q c) ((ValueIdx.contrEquiv1 dot_S1024x4096_S4096x33_S1024x33_1_0_0_1_n_n 4096 rfl rfl).symm i) = ix2 i c := funext fun a => Fin.ext (by
    match a with
    | ⟨0, _⟩ => exact (rhs_p_0 _ _).trans hk
    | ⟨1, _⟩ => exact rhs_p_1 _ _)
  rw [el, er]

/-- The new accumulator at (q, c): the old one rescaled to the new reference point, plus the block's weighted sum. -/
private theorem pay6_apply (x0 : FVec Ideal S1024x20 .bf16) (x1 : FVec Ideal S4096x20 .bf16) (xs0 : FVec Ideal S1024x1 .f32)
    (x2 : FVec Ideal S4096x33 .bf16) (xs1 : FVec Ideal S1024x33 .f32) (q : Fin 1024) (c : Fin 33) :
    k0_pay6 (F := Ideal) x0 x1 xs0 x2 xs1 (ix2 q c)
      = xs1 (ix2 q c) * Ideal.exp (xs0 (ix2 q (0 : Fin 1)) - k0_pay4 (F := Ideal) x0 x1 xs0 (ix2 q (0 : Fin 1)))
        + ∑ i : Fin 4096, Ideal.exp (k0_pay3 (F := Ideal) x0 x1 (ix2 q i) - k0_pay4 (F := Ideal) x0 x1 xs0 (ix2 q (0 : Fin 1))) * x2 (ix2 i c) := by
  unfold k0_pay6
  rw [shapeCast_self, shapeCast_self, addf_apply, mulf_apply]
  refine congrArg₂ (· + ·) (congrArg (xs1 (ix2 q c) * ·) ?_) ?_
  · exact Cert.LibKeepdims.broadcastTo_a1_ab_apply _ broadcasts_S1024x1_S1024x33 q c
  · refine (pv_apply _ _ q c).trans (Finset.sum_congr rfl fun i _ => congrArg (· * x2 (ix2 i c)) ?_)
    exact congrArg (fun t => Ideal.exp (k0_pay3 (F := Ideal) x0 x1 (ix2 q i) - t))
      (Cert.LibKeepdims.broadcastTo_a1_ab_apply (k0_pay4 (F := Ideal) x0 x1 xs0) broadcasts_S1024x1_S1024x4096 q i)

/-- The exponential of a difference of casts is the cast of the real exponential of the difference. -/
private theorem exp_sub_coe (x y : ℝ) : Ideal.exp ((x : EReal) - (y : EReal)) = ((Real.exp (x - y) : ℝ) : EReal) := by
  rw [← EReal.coe_sub]; rfl

private theorem pay4_first (x0 : FVec Ideal S1024x20 .bf16) (x1 : FVec Ideal S4096x20 .bf16)
    (a : Fin 1024 → Fin 20 → ℝ) (k : Fin 4096 → Fin 20 → ℝ)
    (h0 : ∀ q d, x0 (ix2 q d) = ((a q d : ℝ) : EReal)) (h1 : ∀ i d, x1 (ix2 i d) = ((k i d : ℝ) : EReal))
    (q : Fin 1024) (z : Fin 1) :
    k0_pay4 (F := Ideal) x0 x1 (k0_pay1 (F := Ideal)) (ix2 q z) = ((emax (bscore a k q) : ℝ) : EReal) := by
  rw [pay4_apply, pay1_apply, rowmax_real x0 x1 a k h0 h1 q]
  exact max_eq_right bot_le

private theorem pay4_next (x0 : FVec Ideal S1024x20 .bf16) (x1 : FVec Ideal S4096x20 .bf16) (xs0 : FVec Ideal S1024x1 .f32)
    (a : Fin 1024 → Fin 20 → ℝ) (k : Fin 4096 → Fin 20 → ℝ) (μ : Fin 1024 → ℝ)
    (h0 : ∀ q d, x0 (ix2 q d) = ((a q d : ℝ) : EReal)) (h1 : ∀ i d, x1 (ix2 i d) = ((k i d : ℝ) : EReal))
    (hs0 : ∀ q (z : Fin 1), xs0 (ix2 q z) = ((μ q : ℝ) : EReal))
    (q : Fin 1024) (z : Fin 1) :
    k0_pay4 (F := Ideal) x0 x1 xs0 (ix2 q z) = ((max (μ q) (emax (bscore a k q)) : ℝ) : EReal) := by
  rw [pay4_apply, hs0, rowmax_real x0 x1 a k h0 h1 q]
  exact (coe_max _ _).symm

/-! ### The final quotient -/

/-- The quotient at (q, c): column c of the accumulator over its last column. -/
private theorem pay7_apply (x : FVec Ideal S1024x33 .f32) (q : Fin 1024) (c : Fin 32) :
    k0_pay7 (F := Ideal) x (ix2 q c) = Ideal.div (x (ix2 q (Fin.castSucc c))) (x (ix2 q (Fin.last 32))) := by
  unfold k0_pay7
  rw [divf_apply]
  refine congrArg₂ Ideal.div ?_ ?_
  · exact extractStridedSlice_apply _ x slices_S1024x33_o0_0_S1024x32 (ix2 q c) (ix2 q (Fin.castSucc c)) (fun ax => by
      match ax with
      | ⟨0, _⟩ => exact (Nat.zero_add _).symm
      | ⟨1, _⟩ => exact (Nat.zero_add _).symm)
  · refine (Cert.LibKeepdims.broadcastTo_a1_ab_apply _ broadcasts_S1024x1_S1024x32 q c).trans ?_
    exact extractStridedSlice_apply _ x slices_S1024x33_o0_32_S1024x1 (ix2 q (0 : Fin 1)) (ix2 q (Fin.last 32)) (fun ax => by
      match ax with
      | ⟨0, _⟩ => exact (Nat.zero_add _).symm
      | ⟨1, _⟩ => rfl)

theorem pay5_first (x0 : FVec Ideal S1024x20 .bf16) (x1 : FVec Ideal S4096x20 .bf16)
    (a : Fin 1024 → Fin 20 → ℝ) (k : Fin 4096 → Fin 20 → ℝ)
    (h0 : ∀ q d, x0 (ix2 q d) = ((a q d : ℝ) : EReal)) (h1 : ∀ i d, x1 (ix2 i d) = ((k i d : ℝ) : EReal))
    (q : Fin 1024) (z : Fin 1) :
    k0_pay5 (F := Ideal) x0 x1 (k0_pay1 (F := Ideal)) (ix2 q z) = ((emax (bscore a k q) : ℝ) : EReal) := by
  rw [pay5_apply, pay1_apply, rowmax_real x0 x1 a k h0 h1 q]
  exact max_eq_right bot_le

theorem pay5_next (x0 : FVec Ideal S1024x20 .bf16) (x1 : FVec Ideal S4096x20 .bf16) (xs0 : FVec Ideal S1024x1 .f32)
    (a : Fin 1024 → Fin 20 → ℝ) (k : Fin 4096 → Fin 20 → ℝ) (μ : Fin 1024 → ℝ)
    (h0 : ∀ q d, x0 (ix2 q d) = ((a q d : ℝ) : EReal)) (h1 : ∀ i d, x1 (ix2 i d) = ((k i d : ℝ) : EReal))
    (hs0 : ∀ q (z : Fin 1), xs0 (ix2 q z) = ((μ q : ℝ) : EReal))
    (q : Fin 1024) (z : Fin 1) :
    k0_pay5 (F := Ideal) x0 x1 xs0 (ix2 q z) = ((max (μ q) (emax (bscore a k q)) : ℝ) : EReal) := by
  rw [pay5_apply, hs0, rowmax_real x0 x1 a k h0 h1 q]
  exact (coe_max _ _).symm

theorem pay6_first (x0 : FVec Ideal S1024x20 .bf16) (x1 : FVec Ideal S4096x20 .bf16) (x2 : FVec Ideal S4096x33 .bf16)
    (a : Fin 1024 → Fin 20 → ℝ) (k : Fin 4096 → Fin 20 → ℝ) (vv : Fin 4096 → Fin 33 → ℝ)
    (h0 : ∀ q d, x0 (ix2 q d) = ((a q d : ℝ) : EReal)) (h1 : ∀ i d, x1 (ix2 i d) = ((k i d : ℝ) : EReal))
    (h2 : ∀ i c, x2 (ix2 i c) = ((vv i c : ℝ) : EReal))
    (q : Fin 1024) (c : Fin 33) :
    k0_pay6 (F := Ideal) x0 x1 (k0_pay1 (F := Ideal)) x2 (k0_pay2 (F := Ideal)) (ix2 q c)
      = ((∑ i, Real.exp (bscore a k q i - emax (bscore a k q)) * vv i c : ℝ) : EReal) := by
  rw [pay6_apply, pay2_apply, zero_mul, zero_add, coe_sum]
  refine Finset.sum_congr rfl fun i _ => ?_
  rw [pay4_first x0 x1 a k h0 h1 q, pay3_real x0 x1 a k h0 h1 q i, h2, exp_sub_coe, EReal.coe_mul]

theorem pay6_next (x0 : FVec Ideal S1024x20 .bf16) (x1 : FVec Ideal S4096x20 .bf16) (xs0 : FVec Ideal S1024x1 .f32)
    (x2 : FVec Ideal S4096x33 .bf16) (xs1 : FVec Ideal S1024x33 .f32)
    (a : Fin 1024 → Fin 20 → ℝ) (k : Fin 4096 → Fin 20 → ℝ) (vv : Fin 4096 → Fin 33 → ℝ) (μ : Fin 1024 → ℝ) (α : Fin 1024 → Fin 33 → ℝ)
    (h0 : ∀ q d, x0 (ix2 q d) = ((a q d : ℝ) : EReal)) (h1 : ∀ i d, x1 (ix2 i d) = ((k i d : ℝ) : EReal))
    (h2 : ∀ i c, x2 (ix2 i c) = ((vv i c : ℝ) : EReal))
    (hs0 : ∀ q (z : Fin 1), xs0 (ix2 q z) = ((μ q : ℝ) : EReal)) (hs1 : ∀ q c, xs1 (ix2 q c) = ((α q c : ℝ) : EReal))
    (q : Fin 1024) (c : Fin 33) :
    k0_pay6 (F := Ideal) x0 x1 xs0 x2 xs1 (ix2 q c)
      = ((α q c * Real.exp (μ q - max (μ q) (emax (bscore a k q)))
          + ∑ i, Real.exp (bscore a k q i - max (μ q) (emax (bscore a k q))) * vv i c : ℝ) : EReal) := by
  rw [pay6_apply, pay4_next x0 x1 xs0 a k μ h0 h1 hs0 q, hs1, hs0, exp_sub_coe, EReal.coe_add, EReal.coe_mul, coe_sum]
  refine congrArg (_ + ·) (Finset.sum_congr rfl fun i _ => ?_)
  rw [pay3_real x0 x1 a k h0 h1 q i, h2, exp_sub_coe, EReal.coe_mul]

theorem pay7_real (x : FVec Ideal S1024x33 .f32) (α : Fin 1024 → Fin 33 → ℝ)
    (hx : ∀ q c, x (ix2 q c) = ((α q c : ℝ) : EReal)) (hne : ∀ q, α q (Fin.last 32) ≠ 0)
    (q : Fin 1024) (c : Fin 32) :
    k0_pay7 (F := Ideal) x (ix2 q c) = ((α q (Fin.castSucc c) / α q (Fin.last 32) : ℝ) : EReal) := by
  rw [pay7_apply, hx, hx, Ideal.div_coe (hne q), ← EReal.coe_mul, mul_one_div]

end Cert.Flash

end
-- ==== Proof.Blocks.lean ====
/-
  The three input windows' blocks at a grid point, over real argument arrays: the query block is the whole query array
  scaled by the temperature 10; block `t` of the keys is rows `4096·t … 4096·t + 4095` of the key array; block `t` of the
  extended value table is the same rows of the value array with a column of ones appended.  (The host's changes of float
  format are the identity on the extended reals.)
-/
import proofs.«115970_g62380105007505_cont_9to1_m_337_6_alg».proof.Proof.Gen.KernelIdeal.Frame
import proofs.«115970_g62380105007505_cont_9to1_m_337_6_alg».proof.Proof.Spec
import Idealize.ShloMosaic.Lib.ValueIdx
import Idealize.ShloMosaic.Lib.Pipeline.Value
import Idealize.ShloMosaic.Lib.StableHlo.Run

set_option maxRecDepth 16384

noncomputable section

namespace Cert.Flash

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The three argument arrays, at their literal types. -/
abbrev keysArr (c : Dev nD) : FVec Ideal S65536x20 .f32 := m ((c : Thread nD τ).loc main_arg0)
abbrev valsArr (c : Dev nD) : FVec Ideal S65536x32 .f32 := m ((c : Thread nD τ).loc main_arg1)
abbrev addrArr (c : Dev nD) : FVec Ideal S1024x20 .f32 := m ((c : Thread nD τ).loc main_arg2)

/-- The three input blocks at a grid point, at their literal types. -/
abbrev blk0 (c : Dev nD) (t : Fin cfg0.N) : FVec Ideal S1024x20 .bf16 := iblk m c 0 t
abbrev blk1 (c : Dev nD) (t : Fin cfg0.N) : FVec Ideal S4096x20 .bf16 := iblk m c 1 t
abbrev blk2 (c : Dev nD) (t : Fin cfg0.N) : FVec Ideal S4096x33 .bf16 := iblk m c 2 t

/-- The float word `0x41200000` is ten. -/
private theorem ofBits_ten : Ideal.ofBits .f32 0x41200000#32 = ((10 : ℝ) : EReal) := by
  simp [Ideal.ofBits, Ideal.ieee, -EReal.coe_mul]; norm_num

/-- The float word `0x3F800000` is one. -/
private theorem ofBits_one : Ideal.ofBits .f32 0x3F800000#32 = ((1 : ℝ) : EReal) := by
  simp [Ideal.ofBits, Ideal.ieee, -EReal.coe_mul]; norm_num

open Idealize.ShloMosaic.StableHlo in
/-- The query array as the region finds it: the argument times the broadcast temperature, its float format narrowed. -/
private theorem addr_entry (c : Dev nD) :
    (V m c main_call0_v2 : S1024x20.Idx → EReal)
      = truncf .bf16 (mulf (addrArr m c)
          (broadcastInDim S1024x20 ![] bcast_S_S1024x20 (constant (F := Ideal) S_ .f32 0x41200000#32))) bitsLt_bf16_f32 := by
  dsimp only [Gen.V, Gen.hostOps0]
  after_results
  rfl

/-- The query window's block index is `(0, 0)` at every grid point: its block is the whole array. -/
private theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- An element of the query block is the same element of the query array, times ten. -/
private theorem blk0_at (c : Dev nD) (t : Fin cfg0.N) (y : S1024x20.Idx) :
    blk0 m c t y = addrArr m c y * ((10 : ℝ) : EReal) := by
  obtain ⟨e0, e1⟩ := idx0 t
  unfold blk0 iblk
  rw [View.read_apply]
  show (V m c main_call0_v2 : S1024x20.Idx → EReal) (((cfg0.win 0).blk t).view.emb y) = _
  have hy : ((cfg0.win 0).blk t).view.emb y = y := by
    funext a; apply Fin.ext
    match a with
    | ⟨0, _⟩ => show win0_0.index t (0 : Fin 2) * 1024 + 1 * (y 0).val = (y 0).val; rw [e0]; omega
    | ⟨1, _⟩ => show win0_0.index t (1 : Fin 2) * 20 + 1 * (y 1).val = (y 1).val; rw [e1]; omega
  rw [hy, addr_entry, truncf_apply, mulf_apply]
  refine congrArg (addrArr m c y * ·) ?_
  refine (broadcastInDim_apply (![] : Fin S_.rank → Fin S1024x20.rank) bcast_S_S1024x20 _ y ix0 (fun a => a.elim0)).trans ?_
  rw [constant_apply, ofBits_ten]

theorem blk0_apply (c : Dev nD) (aR : Fin 1024 → Fin 20 → ℝ)
    (h : ∀ q d, addrArr m c (ix2 q d) = ((aR q d : ℝ) : EReal)) (t : Fin cfg0.N) (q : Fin 1024) (d : Fin 20) :
    blk0 m c t (ix2 q d) = ((aR q d * 10 : ℝ) : EReal) := by
  rw [blk0_at, h, EReal.coe_mul]

open Idealize.ShloMosaic.StableHlo in
/-- The key array as the region finds it: the argument, its float format narrowed. -/
private theorem keys_entry (c : Dev nD) :
    (V m c main_call0_v3 : S65536x20.Idx → EReal) = truncf .bf16 (keysArr m c) bitsLt_bf16_f32 := by
  dsimp only [Gen.V, Gen.hostOps0]
  after_results
  rfl

/-- The key window's block index at grid point `t` is `(t, 0)`. -/
private theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- An element of the key block at point `t` is the element of the key array `4096·t` rows further down. -/
private theorem blk1_at (c : Dev nD) (t : Fin cfg0.N) (y : S4096x20.Idx) (k : S65536x20.Idx)
    (hk0 : (k 0).val = t.val * 4096 + (y 0).val) (hk1 : (k 1).val = (y 1).val) :
    blk1 m c t y = keysArr m c k := by
  obtain ⟨e0, e1⟩ := idx1 t
  unfold blk1 iblk
  rw [View.read_apply]
  show (V m c main_call0_v3 : S65536x20.Idx → EReal) (((cfg0.win 1).blk t).view.emb y) = _
  rw [keys_entry, truncf_apply]
  refine congrArg (keysArr m c) (funext fun a => Fin.ext ?_)
  match a with
  | ⟨0, _⟩ => show win0_1.index t (0 : Fin 2) * 4096 + 1 * (y 0).val = (k 0).val; rw [e0, hk0]; omega
  | ⟨1, _⟩ => show win0_1.index t (1 : Fin 2) * 20 + 1 * (y 1).val = (k 1).val; rw [e1, hk1]; omega

theorem blk1_apply (c : Dev nD) (kR : Fin 65536 → Fin 20 → ℝ)
    (h : ∀ j d, keysArr m c (ix2 j d) = ((kR j d : ℝ) : EReal)) (t : Fin cfg0.N) (i : Fin 4096) (d : Fin 20) :
    blk1 m c t (ix2 i d) = ((kR (rowOf t.val i) d : ℝ) : EReal) := by
  have ht : t.val < 16 := lt_of_lt_of_eq t.isLt N_0
  rw [← h]
  exact blk1_at m c t (ix2 i d) (ix2 (rowOf t.val i) d) (rowOf_val t.val ht i) rfl

/-- The value table with a column of ones appended, as the operations build it. -/
private abbrev vextArr (c : Dev nD) : FVec Ideal S65536x33 .f32 :=
  concatenate S65536x33 1
    [⟨S65536x32, valsArr m c⟩,
     ⟨S65536x1, broadcastInDim S65536x1 ![] bcast_S_S65536x1 (constant (F := Ideal) S_ .f32 0x3F800000#32)⟩]
    concatenates_S65536x32_S65536x1_S65536x33_d1

open Idealize.ShloMosaic.StableHlo in
/-- The extended value table as the region finds it: the concatenation, its float format narrowed. -/
private theorem vals_entry (c : Dev nD) :
    (V m c main_call0_v6 : S65536x33.Idx → EReal) = truncf .bf16 (vextArr m c) bitsLt_bf16_f32 := by
  dsimp only [Gen.V, Gen.hostOps0]
  after_results
  rfl

/-- The value window's block index at grid point `t` is `(t, 0)`. -/
private theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- An element of the value block at point `t` is the element of the extended table `4096·t` rows further down. -/
private theorem blk2_at (c : Dev nD) (t : Fin cfg0.N) (y : S4096x33.Idx) (k : S65536x33.Idx)
    (hk0 : (k 0).val = t.val * 4096 + (y 0).val) (hk1 : (k 1).val = (y 1).val) :
    blk2 m c t y = vextArr m c k := by
  obtain ⟨e0, e1⟩ := idx2 t
  unfold blk2 iblk
  rw [View.read_apply]
  show (V m c main_call0_v6 : S65536x33.Idx → EReal) (((cfg0.win 2).blk t).view.emb y) = _
  rw [vals_entry, truncf_apply]
  refine congrArg (vextArr m c) (funext fun a => Fin.ext ?_)
  match a with
  | ⟨0, _⟩ => show win0_2.index t (0 : Fin 2) * 4096 + 1 * (y 0).val = (k 0).val; rw [e0, hk0]; omega
  | ⟨1, _⟩ => show win0_2.index t (1 : Fin 2) * 33 + 1 * (y 1).val = (k 1).val; rw [e1, hk1]; omega

/-- Left of column 32 the extended table is the value array. -/
private theorem vextArr_left (c : Dev nD) (j : Fin 65536) (e : Fin 33) (he : e.val < 32) :
    vextArr m c (ix2 j e) = valsArr m c (ix2 j ⟨e.val, he⟩) :=
  concatenate_pair_apply_left (1 : Fin S65536x33.rank) _ _ concatenates_S65536x32_S65536x1_S65536x33_d1 (ix2 j e) rfl
    (ix2 j ⟨e.val, he⟩) (fun b => match b with | ⟨0, _⟩ => rfl | ⟨1, _⟩ => rfl)

/-- Column 32 of the extended table is one. -/
private theorem vextArr_right (c : Dev nD) (j : Fin 65536) (e : Fin 33) (he : ¬ e.val < 32) :
    vextArr m c (ix2 j e) = ((1 : ℝ) : EReal) := by
  have he' : e.val = 32 := by have := e.isLt; omega
  refine (concatenate_pair_apply_right (1 : Fin S65536x33.rank) _ _ concatenates_S65536x32_S65536x1_S65536x33_d1 (ix2 j e) rfl rfl
    (ix2 j (0 : Fin 1)) (fun b => match b with | ⟨0, _⟩ => fun _ => rfl | ⟨1, _⟩ => fun hne => absurd rfl hne) ?_).trans ?_
  · show (0 : ℕ) + 32 = e.val
    omega
  · refine (broadcastInDim_apply (![] : Fin S_.rank → Fin S65536x1.rank) bcast_S_S65536x1 _ (ix2 j (0 : Fin 1)) ix0 (fun a => a.elim0)).trans ?_
    rw [constant_apply, ofBits_one]

theorem blk2_apply (c : Dev nD) (vR : Fin 65536 → Fin 32 → ℝ)
    (h : ∀ j e, valsArr m c (ix2 j e) = ((vR j e : ℝ) : EReal)) (t : Fin cfg0.N) (i : Fin 4096) (e : Fin 33) :
    blk2 m c t (ix2 i e) = ((vext vR (rowOf t.val i) e : ℝ) : EReal) := by
  have ht : t.val < 16 := lt_of_lt_of_eq t.isLt N_0
  rw [blk2_at m c t (ix2 i e) (ix2 (rowOf t.val i) e) (rowOf_val t.val ht i) rfl]
  unfold vext
  by_cases he : e.val < 32
  · rw [dif_pos he, vextArr_left m c _ e he, h]
  · rw [dif_neg he, vextArr_right m c _ e he]

end Cert.Flash

end
-- ==== Proof.Carry.lean ====
/-
  The streamed state, point by point, over real argument arrays.

  After grid point `n` the first scratch buffer holds, in row `q`, a real `mu n q` (the running maximum of the scores of
  the blocks so far), and the second holds in row `q`, column `e`, the accumulator `acc n q e` of OnlineSoftmax.lean taken
  with those reference points: the sum over the blocks so far of `exp (score − mu n q) · value`, column 32 being the
  column of ones.  The proof is an induction on the point: the first point stores the body's two values over the reset
  contents (−∞ and 0), every later point over what the point before left.
-/
import proofs.«115970_g62380105007505_cont_9to1_m_337_6_alg».proof.Proof.Pieces
import proofs.«115970_g62380105007505_cont_9to1_m_337_6_alg».proof.Proof.Payloads
import proofs.«115970_g62380105007505_cont_9to1_m_337_6_alg».proof.Proof.Blocks
import proofs.«115970_g62380105007505_cont_9to1_m_337_6_alg».proof.Proof.Spec

set_option maxRecDepth 16384

noncomputable section

open scoped BigOperators

namespace Cert.Flash

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-! ## What each point leaves, as the body's stored values -/

/-- The first point: the body's two values over the reset contents. -/
theorem outs_zero (c : Dev nD) (hn : 0 < cfg0.N) :
    (outsAt0 m c 0 hn).2.1 = k0_pay5 (F := Ideal) (blk0 m c ⟨0, hn⟩) (blk1 m c ⟨0, hn⟩) (k0_pay1 (F := Ideal))
    ∧ (outsAt0 m c 0 hn).2.2
        = k0_pay6 (F := Ideal) (blk0 m c ⟨0, hn⟩) (blk1 m c ⟨0, hn⟩) (k0_pay1 (F := Ideal)) (blk2 m c ⟨0, hn⟩) (k0_pay2 (F := Ideal)) := by
  have e : outsAt0 m c 0 hn = (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩)) := rfl
  rw [e]; dsimp only
  exact ⟨sout_A_0 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) _ _ (iblk m c 0 ⟨0, hn⟩) (iblk m c 1 ⟨0, hn⟩) (iblk m c 2 ⟨0, hn⟩),
    sout_A_1 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) _ _ (iblk m c 0 ⟨0, hn⟩) (iblk m c 1 ⟨0, hn⟩) (iblk m c 2 ⟨0, hn⟩)⟩

/-- A middle point: the body's two values over what the point before left. -/
theorem outs_B (c : Dev nD) (n : ℕ) (hn : n + 1 < cfg0.N) (h0 : ¬(n + 1) % 16 = 0) (h1 : ¬(n + 1) % 16 = 15) :
    (outsAt0 m c (n + 1) hn).2.1
        = k0_pay5 (F := Ideal) (blk0 m c ⟨n + 1, hn⟩) (blk1 m c ⟨n + 1, hn⟩) (outsAt0 m c n (Nat.lt_of_succ_lt hn)).2.1
    ∧ (outsAt0 m c (n + 1) hn).2.2
        = k0_pay6 (F := Ideal) (blk0 m c ⟨n + 1, hn⟩) (blk1 m c ⟨n + 1, hn⟩) (outsAt0 m c n (Nat.lt_of_succ_lt hn)).2.1
            (blk2 m c ⟨n + 1, hn⟩) (outsAt0 m c n (Nat.lt_of_succ_lt hn)).2.2 := by
  have e : outsAt0 m c (n + 1) hn = (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2) := (dif_neg h0).trans (dif_neg h1)
  rw [e]; dsimp only
  exact ⟨sout_B_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2,
    sout_B_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2⟩

/-- The last point: the same two values, and the output block is the quotient taken of the new accumulator. -/
theorem outs_C (c : Dev nD) (n : ℕ) (hn : n + 1 < cfg0.N) (h0 : ¬(n + 1) % 16 = 0) (h1 : (n + 1) % 16 = 15) :
    (outsAt0 m c (n + 1) hn).1
        = k0_pay7 (F := Ideal) (k0_pay6 (F := Ideal) (blk0 m c ⟨n + 1, hn⟩) (blk1 m c ⟨n + 1, hn⟩) (outsAt0 m c n (Nat.lt_of_succ_lt hn)).2.1
            (blk2 m c ⟨n + 1, hn⟩) (outsAt0 m c n (Nat.lt_of_succ_lt hn)).2.2)
    ∧ (outsAt0 m c (n + 1) hn).2.1
        = k0_pay5 (F := Ideal) (blk0 m c ⟨n + 1, hn⟩) (blk1 m c ⟨n + 1, hn⟩) (outsAt0 m c n (Nat.lt_of_succ_lt hn)).2.1
    ∧ (outsAt0 m c (n + 1) hn).2.2
        = k0_pay6 (F := Ideal) (blk0 m c ⟨n + 1, hn⟩) (blk1 m c ⟨n + 1, hn⟩) (outsAt0 m c n (Nat.lt_of_succ_lt hn)).2.1
            (blk2 m c ⟨n + 1, hn⟩) (outsAt0 m c n (Nat.lt_of_succ_lt hn)).2.2 := by
  have e : outsAt0 m c (n + 1) hn = (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2) := (dif_neg h0).trans (dif_pos h1)
  rw [e]; dsimp only
  exact ⟨out_C_3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2,
    sout_C_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2,
    sout_C_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ (iblk m c 0 ⟨n + 1, hn⟩) (iblk m c 1 ⟨n + 1, hn⟩) (iblk m c 2 ⟨n + 1, hn⟩) (outsAt0 m c n (Nat.lt_of_succ_lt hn)).2.1 (outsAt0 m c n (Nat.lt_of_succ_lt hn)).2.2⟩

/-! ## The real model of the state -/

section Model

variable (aR : Fin 1024 → Fin 20 → ℝ) (kR : Fin 65536 → Fin 20 → ℝ) (vR : Fin 65536 → Fin 32 → ℝ)

/-- The query array scaled by the temperature. -/
def aS (q : Fin 1024) (d : Fin 20) : ℝ := aR q d * 10
/-- Block `t` of the keys. -/
def kB (t : ℕ) (i : Fin 4096) (d : Fin 20) : ℝ := kR (rowOf t i) d
/-- Block `t` of the value table with its column of ones. -/
def vB (t : ℕ) (i : Fin 4096) (e : Fin 33) : ℝ := vext vR (rowOf t i) e

/-- The running maximum after block `t`, row by row. -/
def mu : ℕ → Fin 1024 → ℝ
  | 0, q => emax (bscore (aS aR) (kB kR 0) q)
  | t + 1, q => max (mu t q) (emax (bscore (aS aR) (kB kR (t + 1)) q))

/-- The accumulator after block `t`, at row `q` and column `e`. -/
def acc (t : ℕ) (q : Fin 1024) (e : Fin 33) : ℝ :=
  accR (fun u i => bscore (aS aR) (kB kR u) q i) (fun u i => vB vR u i e) (fun u => mu aR kR u q) t

/-- The two scratch buffers after point `n` hold the casts of `mu n` and `acc n`. -/
def Inv (c : Dev nD) (n : ℕ) (hn : n < cfg0.N) : Prop :=
  (∀ (q : Fin 1024) (z : Fin 1), ((outsAt0 m c n hn).2.1 : FVec Ideal S1024x1 .f32) (ix2 q z) = ((mu aR kR n q : ℝ) : EReal))
  ∧ (∀ (q : Fin 1024) (e : Fin 33), ((outsAt0 m c n hn).2.2 : FVec Ideal S1024x33 .f32) (ix2 q e) = ((acc aR kR vR n q e : ℝ) : EReal))

theorem inv_all (c : Dev nD)
    (hK : ∀ j d, keysArr m c (ix2 j d) = ((kR j d : ℝ) : EReal))
    (hV : ∀ j e, valsArr m c (ix2 j e) = ((vR j e : ℝ) : EReal))
    (hA : ∀ q d, addrArr m c (ix2 q d) = ((aR q d : ℝ) : EReal)) :
    ∀ (n : ℕ) (hn : n < cfg0.N), Inv m aR kR vR c n hn := by
  intro n
  induction n with
  | zero =>
    intro hn
    obtain ⟨e1, e2⟩ := outs_zero m c hn
    refine ⟨fun q z => ?_, fun q e => ?_⟩
    · rw [e1]
      exact pay5_first (blk0 m c ⟨0, hn⟩) (blk1 m c ⟨0, hn⟩) (aS aR) (kB kR 0)
        (fun q d => blk0_apply m c aR hA ⟨0, hn⟩ q d) (fun i d => blk1_apply m c kR hK ⟨0, hn⟩ i d) q z
    · rw [e2]
      exact pay6_first (blk0 m c ⟨0, hn⟩) (blk1 m c ⟨0, hn⟩) (blk2 m c ⟨0, hn⟩) (aS aR) (kB kR 0) (vB vR 0)
        (fun q d => blk0_apply m c aR hA ⟨0, hn⟩ q d) (fun i d => blk1_apply m c kR hK ⟨0, hn⟩ i d)
        (fun i e => blk2_apply m c vR hV ⟨0, hn⟩ i e) q e
  | succ n ih =>
    intro hn
    obtain ⟨ih1, ih2⟩ := ih (Nat.lt_of_succ_lt hn)
    have hN : n + 1 < 16 := lt_of_lt_of_eq hn (show cfg0.N = 16 from N_0)
    have h0 : ¬(n + 1) % 16 = 0 := by omega
    have hb0 : ∀ q d, blk0 m c ⟨n + 1, hn⟩ (ix2 q d) = ((aS aR q d : ℝ) : EReal) := fun q d => blk0_apply m c aR hA ⟨n + 1, hn⟩ q d
    have hb1 : ∀ i d, blk1 m c ⟨n + 1, hn⟩ (ix2 i d) = ((kB kR (n + 1) i d : ℝ) : EReal) := fun i d => blk1_apply m c kR hK ⟨n + 1, hn⟩ i d
    have hb2 : ∀ i e, blk2 m c ⟨n + 1, hn⟩ (ix2 i e) = ((vB vR (n + 1) i e : ℝ) : EReal) := fun i e => blk2_apply m c vR hV ⟨n + 1, hn⟩ i e
    by_cases h1 : (n + 1) % 16 = 15
    · obtain ⟨-, e1, e2⟩ := outs_C m c n hn h0 h1
      refine ⟨fun q z => ?_, fun q e => ?_⟩
      · rw [e1]
        exact pay5_next (blk0 m c ⟨n + 1, hn⟩) (blk1 m c ⟨n + 1, hn⟩) _ (aS aR) (kB kR (n + 1)) (mu aR kR n) hb0 hb1 ih1 q z
      · rw [e2]
        exact pay6_next (blk0 m c ⟨n + 1, hn⟩) (blk1 m c ⟨n + 1, hn⟩) _ (blk2 m c ⟨n + 1, hn⟩) _ (aS aR) (kB kR (n + 1)) (vB vR (n + 1))
          (mu aR kR n) (acc aR kR vR n) hb0 hb1 hb2 ih1 ih2 q e
    · obtain ⟨e1, e2⟩ := outs_B m c n hn h0 h1
      refine ⟨fun q z => ?_, fun q e => ?_⟩
      · rw [e1]
        exact pay5_next (blk0 m c ⟨n + 1, hn⟩) (blk1 m c ⟨n + 1, hn⟩) _ (aS aR) (kB kR (n + 1)) (mu aR kR n) hb0 hb1 ih1 q z
      · rw [e2]
        exact pay6_next (blk0 m c ⟨n + 1, hn⟩) (blk1 m c ⟨n + 1, hn⟩) _ (blk2 m c ⟨n + 1, hn⟩) _ (aS aR) (kB kR (n + 1)) (vB vR (n + 1))
          (mu aR kR n) (acc aR kR vR n) hb0 hb1 hb2 ih1 ih2 q e

end Model

end Cert.Flash

end
-- ==== Proof.Final.lean ====
/-
  The result array after the run, and its value.

  The output window's block is the whole [1024, 32] array and is written back once, after the last grid point; so the
  array ends holding what the last point stored in the staging buffer: the accumulator's 32 value columns divided by
  its column of ones.  With the closed form of the accumulator that quotient is the softmax-weighted mean of the value
  column, whatever reference points the stream used.
-/
import proofs.«115970_g62380105007505_cont_9to1_m_337_6_alg».proof.Proof.Carry
import proofs.«115970_g62380105007505_cont_9to1_m_337_6_alg».proof.Proof.Gen.KernelIdeal.Value

set_option maxRecDepth 16384

noncomputable section

open scoped BigOperators

namespace Cert.Flash

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

theorem lastLt : 15 < cfg0.N := by rw [show cfg0.N = 16 from N_0]; decide

/-- The last grid point. -/
abbrev tLast : Fin cfg0.N := ⟨15, lastLt⟩

/-- What the last point leaves in the output's staging buffer, as contents of the result array. -/
abbrev result (c : Dev nD) : Buf (Elt Ideal) ((c : Thread nD τ).loc main_v0) := (outsAt0 m c 15 lastLt).1

/-- The output window sits at block (0, 0) at the last point, and its block has the array's extents. -/
theorem lastBlock : ∀ a : Fin 2, win0_3.index tLast a * win0_3.size a = 0 ∧ win0_3.xsize (grid0.coords tLast) a = S1024x32.size a := by
  decide +kernel

/-- The only write-back is the last point's, and it writes the staging buffer whole. -/
theorem flushed_last (c : Dev nD) (t : Fin cfg0.N) (hf : (cfg0.win 3).flush t = true) :
    (dats m 0 c).flushed 3 t = ((cfg0.win 3).blk t).view.read (Elt Ideal) (result m c) := by
  have hN : cfg0.N = 16 := N_0
  have ht : t.val = 15 := by have h1 := (flush0_3 t).mp hf; have h2 := t.isLt; omega
  obtain rfl : t = tLast := Fin.ext ht
  show (cfg0.win 3).cut (grid0.coords tLast) ((dats m 0 c).after 3 tLast) = _
  rw [after0_3]
  have hz : (fun a => win0_3.index tLast a * main_v0.ty.shape.size a) = fun _ => 0 :=
    funext fun a => (lastBlock a).1
  exact (Memref.read_access_unit_zero (Elt Ideal) main_v0 hz (fun a => by rw [congrFun hz a]; simp) (result m c)).symm

/-- Every index of the result array lies in the last point's block. -/
theorem mem_lastBlock (i : S1024x32.Idx) : i ∈ ((cfg0.win 3).blk tLast).view.set := by
  show i ∈ ((View.whole main_v0).slice (win0_3.rect tLast)).set
  rw [View.set_slice_whole, Rect.mem_set_unit]
  intro a
  show win0_3.index tLast a * win0_3.size a ≤ (i a : Nat) ∧ (i a : Nat) < win0_3.index tLast a * win0_3.size a + win0_3.xsize (grid0.coords tLast) a
  rw [(lastBlock a).1, (lastBlock a).2]
  exact ⟨Nat.zero_le _, by rw [Nat.zero_add]; exact (i a).isLt⟩

/-- So the result array ends holding what the last point stored. -/
theorem final (c : Dev nD) : (dats m 0 c).arrAt 3 cfg0.N = result m c :=
  (dats m 0 c).arrAt_eq_of_cover 3 (result m c) (flushed_last m c) fun i =>
    ⟨tLast, (flush0_3 tLast).mpr rfl, mem_lastBlock i⟩

/-- The kernel's run, read: the result array at the last point's block, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

/-! ## The value of the result -/

/-- At the last point the output block is the quotient taken of the accumulator that point has just stored. -/
theorem last_quot (c : Dev nD) : ∀ (n : ℕ) (hn : n < cfg0.N), n = 15 →
    (outsAt0 m c n hn).1 = k0_pay7 (F := Ideal) (outsAt0 m c n hn).2.2
  | 0, _, h => by omega
  | n + 1, hn, h => by
    obtain ⟨e0, -, e2⟩ := outs_C m c n hn (by omega) (by omega)
    exact e0.trans (congrArg (k0_pay7 (F := Ideal)) e2.symm)

section Value

variable (aR : Fin 1024 → Fin 20 → ℝ) (kR : Fin 65536 → Fin 20 → ℝ) (vR : Fin 65536 → Fin 32 → ℝ)

/-- A block's score is the score of the row the block's lane stands for. -/
theorem bscore_eq (q : Fin 1024) :
    (fun (u : ℕ) (i : Fin 4096) => bscore (aS aR) (kB kR u) q i) = fun u i => score aR kR q (rowOf u i) := by
  funext u i
  unfold bscore score aS kB
  rfl

/-- The accumulator's last column is the softmax denominator at the stream's reference point: positive. -/
theorem acc_last_ne (t : ℕ) (q : Fin 1024) : acc aR kR vR t q (Fin.last 32) ≠ 0 := by
  have h1 : (fun (u : ℕ) (i : Fin 4096) => vB vR u i (Fin.last 32)) = fun _ _ => (1 : ℝ) :=
    funext fun u => funext fun i => vext_last vR _
  unfold acc
  rw [h1]
  exact (accR_one_pos _ _ t).ne'

/-- The result at row `q`, column `e`: the softmax of row `q`'s scaled scores, weighted over the value column `e`. -/
theorem result_apply (c : Dev nD)
    (hK : ∀ j d, keysArr m c (ix2 j d) = ((kR j d : ℝ) : EReal))
    (hV : ∀ j e, valsArr m c (ix2 j e) = ((vR j e : ℝ) : EReal))
    (hA : ∀ q d, addrArr m c (ix2 q d) = ((aR q d : ℝ) : EReal)) (q : Fin 1024) (e : Fin 32) :
    (result m c : FVec Ideal S1024x32 .f32) (ix2 q e)
      = ((∑ j, Real.exp (score aR kR q j - emax (score aR kR q))
            / (∑ k, Real.exp (score aR kR q k - emax (score aR kR q))) * vR j e : ℝ) : EReal) := by
  have inv := inv_all m aR kR vR c hK hV hA 15 lastLt
  show (outsAt0 m c 15 lastLt).1 (ix2 q e) = _
  rw [last_quot m c 15 lastLt rfl, pay7_real _ (acc aR kR vR 15) inv.2 (acc_last_ne aR kR vR 15) q e]
  refine congrArg (fun r : ℝ => (r : EReal)) ?_
  have hw : (fun (u : ℕ) (i : Fin 4096) => vB vR u i (Fin.castSucc e)) = fun u i => vR (rowOf u i) e :=
    funext fun u => funext fun i => vext_castSucc vR _ e
  have h1 : (fun (u : ℕ) (i : Fin 4096) => vB vR u i (Fin.last 32)) = fun _ _ => (1 : ℝ) :=
    funext fun u => funext fun i => vext_last vR _
  unfold acc
  rw [bscore_eq aR kR q, hw, h1]
  exact flash_eq_softmax (score aR kR q) (fun j => vR j e) (fun u => mu aR kR u q) (emax (score aR kR q))

end Value

end Cert.Flash

end
-- ==== Proof.RefValue.lean ====
/-
  The reference's result at an index, over real argument arrays: the softmax-weighted mean of the value column, the
  softmax taken with the row maximum subtracted as jax does.
-/
import proofs.«115970_g62380105007505_cont_9to1_m_337_6_alg».proof.Proof.Gen.ReferenceIdeal.Read
import proofs.«115970_g62380105007505_cont_9to1_m_337_6_alg».proof.Proof.Spec
import Idealize.ShloMosaic.Lib.ValueIdx
import Idealize.ShloMosaic.Lib.Pipeline.Value
import Idealize.ShloMosaic.PureOps.Ideal.Laws

noncomputable section

open scoped BigOperators

namespace Cert.Flash

open Idealize.ShloMosaic Idealize.ShloMosaic.ValueIdx Cert.ReferenceIdeal

/-- The pattern 0x41200000 denotes the real number ten. -/
private theorem ofBits_ten : Ideal.ofBits .f32 0x41200000#32 = ((10 : ℝ) : EReal) := by
  simp [Ideal.ofBits, Ideal.ieee, -EReal.coe_mul]; norm_num

/-- The pattern 0xFF800000 denotes −∞. -/
private theorem ofBits_negInf : Ideal.ofBits .f32 0xFF800000#32 = (⊥ : EReal) := by
  simp [Ideal.ofBits, Ideal.ieee]

/-- The reference's scaled score at (q, j) is the cast of the model's score. -/
private theorem v3_at (x0 : FVec Ideal S65536x20 .f32) (x2 : FVec Ideal S1024x20 .f32)
    (kR : Fin 65536 → Fin 20 → ℝ) (aR : Fin 1024 → Fin 20 → ℝ)
    (h0 : ∀ j d, x0 (ix2 j d) = ((kR j d : ℝ) : EReal))
    (h2 : ∀ q d, x2 (ix2 q d) = ((aR q d : ℝ) : EReal)) (q : Fin 1024) (j : Fin 65536) :
    Read.val_main_v3 (F := Ideal) x0 x2 (ix2 q j) = ((score aR kR q j : ℝ) : EReal) := by
  rw [Read.val_main_v3_apply, Read.val_main_v1_apply, Read.val_main_v2_apply, Read.val_main_cst_apply]
  have hs : ∀ k : Fin 20, x2 (Read.lidx_main_v1 (ix2 q j) k) * (Read.val_main_v0 (F := Ideal) x0) (Read.ridx_main_v1 (ix2 q j) k)
      = ((aR q k * kR j k : ℝ) : EReal) := by
    intro k
    rw [Read.val_main_v0_apply]
    have e1 : Read.lidx_main_v1 (ix2 q j) k = ix2 q k := funext fun a => Fin.ext (by match a with | ⟨0, _⟩ => rfl | ⟨1, _⟩ => rfl)
    have e2 : Read.idx_main_v0 (Read.ridx_main_v1 (ix2 q j) k) = ix2 j k := funext fun a => Fin.ext (by match a with | ⟨0, _⟩ => rfl | ⟨1, _⟩ => rfl)
    rw [e1, e2, h0, h2, EReal.coe_mul]
  rw [Finset.sum_congr rfl (fun k _ => hs k), ← coe_sum, Ideal.mulf_def, Ideal.ofBits_def, ofBits_ten, ← EReal.coe_mul]
  refine congrArg _ ?_
  unfold score
  rw [Finset.sum_mul]
  exact Finset.sum_congr rfl fun d _ => by ring

/-- The reference's row maximum at q is the cast of the maximum of the model's scores of row q. -/
private theorem v4_at (x0 : FVec Ideal S65536x20 .f32) (x2 : FVec Ideal S1024x20 .f32)
    (kR : Fin 65536 → Fin 20 → ℝ) (aR : Fin 1024 → Fin 20 → ℝ)
    (h0 : ∀ j d, x0 (ix2 j d) = ((kR j d : ℝ) : EReal))
    (h2 : ∀ q d, x2 (ix2 q d) = ((aR q d : ℝ) : EReal)) (q : Fin 1024) :
    Read.val_main_v4 (F := Ideal) x0 x2 (ix1 q) = ((emax (score aR kR q) : ℝ) : EReal) := by
  unfold Read.val_main_v4
  have h : S1024x65536.Reduces [1] S1024 := by decide
  rw [Host.reduce_eq_fold_single FloatOps.maximumf _ _ Gen.reducesTo_S1024x65536_S1024_d1 h Gen.h_S_]
  have hf : (Read.val_main_v3 (F := Ideal) x0 x2 ∘ h.lift (ix1 q))
      = fun k : Fin 65536 => ((score aR kR q k : ℝ) : EReal) := by
    refine funext fun (k : Fin 65536) => ?_
    have e : h.lift (ix1 q) k = ix2 q k := funext fun a => Fin.ext (by match a with | ⟨0, _⟩ => rfl | ⟨1, _⟩ => rfl)
    show Read.val_main_v3 (F := Ideal) x0 x2 (h.lift (ix1 q) k) = _
    rw [e, v3_at x0 x2 kR aR h0 h2]
  rw [coe_emax, Read.val_main_cst_0_apply, Ideal.ofBits_def, ofBits_negInf]
  exact congrArg (fun f => Finset.fold max (⊥ : EReal) f (Finset.univ : Finset (Fin 65536))) hf

/-- The maximum with −∞ changes nothing: the reference's second maximum at q is the same cast. -/
private theorem v6_at (x0 : FVec Ideal S65536x20 .f32) (x2 : FVec Ideal S1024x20 .f32)
    (kR : Fin 65536 → Fin 20 → ℝ) (aR : Fin 1024 → Fin 20 → ℝ)
    (h0 : ∀ j d, x0 (ix2 j d) = ((kR j d : ℝ) : EReal))
    (h2 : ∀ q d, x2 (ix2 q d) = ((aR q d : ℝ) : EReal)) (q : Fin 1024) :
    Read.val_main_v6 (F := Ideal) x0 x2 (ix1 q) = ((emax (score aR kR q) : ℝ) : EReal) := by
  rw [Read.val_main_v6_apply, Read.val_main_v5_apply, Read.val_main_cst_1_apply, v4_at x0 x2 kR aR h0 h2,
    Ideal.maximumf_def, Ideal.ofBits_def, ofBits_negInf]
  exact max_eq_right bot_le

/-- The row maximum broadcast along the row. -/
private theorem v8_at (x0 : FVec Ideal S65536x20 .f32) (x2 : FVec Ideal S1024x20 .f32)
    (kR : Fin 65536 → Fin 20 → ℝ) (aR : Fin 1024 → Fin 20 → ℝ)
    (h0 : ∀ j d, x0 (ix2 j d) = ((kR j d : ℝ) : EReal))
    (h2 : ∀ q d, x2 (ix2 q d) = ((aR q d : ℝ) : EReal)) (q : Fin 1024) (j : Fin 65536) :
    Read.val_main_v8 (F := Ideal) x0 x2 (ix2 q j) = ((emax (score aR kR q) : ℝ) : EReal) := by
  rw [Read.val_main_v8_apply, Read.val_main_v7_apply]
  have e : Read.idx_main_v7 (Read.idx_main_v8 (ix2 q j)) = ix1 q :=
    funext fun a => Fin.ext (by match a with | ⟨0, _⟩ => rfl)
  rw [e, v6_at x0 x2 kR aR h0 h2]

/-- The exponential of the score less the row maximum. -/
private theorem v10_at (x0 : FVec Ideal S65536x20 .f32) (x2 : FVec Ideal S1024x20 .f32)
    (kR : Fin 65536 → Fin 20 → ℝ) (aR : Fin 1024 → Fin 20 → ℝ)
    (h0 : ∀ j d, x0 (ix2 j d) = ((kR j d : ℝ) : EReal))
    (h2 : ∀ q d, x2 (ix2 q d) = ((aR q d : ℝ) : EReal)) (q : Fin 1024) (j : Fin 65536) :
    Read.val_main_v10 (F := Ideal) x0 x2 (ix2 q j)
      = ((Real.exp (score aR kR q j - emax (score aR kR q)) : ℝ) : EReal) := by
  rw [Read.val_main_v10_apply, Read.val_main_v9_apply, v3_at x0 x2 kR aR h0 h2, v8_at x0 x2 kR aR h0 h2,
    Ideal.subf_def, ← EReal.coe_sub, Ideal.hostUnary_exp_def, Ideal.exp_coe]

/-- The softmax denominator of row q. -/
private theorem v11_at (x0 : FVec Ideal S65536x20 .f32) (x2 : FVec Ideal S1024x20 .f32)
    (kR : Fin 65536 → Fin 20 → ℝ) (aR : Fin 1024 → Fin 20 → ℝ)
    (h0 : ∀ j d, x0 (ix2 j d) = ((kR j d : ℝ) : EReal))
    (h2 : ∀ q d, x2 (ix2 q d) = ((aR q d : ℝ) : EReal)) (q : Fin 1024) :
    Read.val_main_v11 (F := Ideal) x0 x2 (ix1 q)
      = ((∑ k, Real.exp (score aR kR q k - emax (score aR kR q)) : ℝ) : EReal) := by
  rw [Read.val_main_v11_apply, Read.val_main_cst_2_apply, Ideal.ofBits_def, Ideal.ofBits_zero_f32, zero_add, coe_sum]
  refine Finset.sum_congr rfl fun k _ => ?_
  have e : Read.idx_main_v11 (ix1 q) k = ix2 q k :=
    funext fun a => Fin.ext (by match a with | ⟨0, _⟩ => rfl | ⟨1, _⟩ => rfl)
  rw [e, v10_at x0 x2 kR aR h0 h2]

/-- The denominator broadcast along the row. -/
private theorem v13_at (x0 : FVec Ideal S65536x20 .f32) (x2 : FVec Ideal S1024x20 .f32)
    (kR : Fin 65536 → Fin 20 → ℝ) (aR : Fin 1024 → Fin 20 → ℝ)
    (h0 : ∀ j d, x0 (ix2 j d) = ((kR j d : ℝ) : EReal))
    (h2 : ∀ q d, x2 (ix2 q d) = ((aR q d : ℝ) : EReal)) (q : Fin 1024) (j : Fin 65536) :
    Read.val_main_v13 (F := Ideal) x0 x2 (ix2 q j)
      = ((∑ k, Real.exp (score aR kR q k - emax (score aR kR q)) : ℝ) : EReal) := by
  rw [Read.val_main_v13_apply, Read.val_main_v12_apply]
  have e : Read.idx_main_v12 (Read.idx_main_v13 (ix2 q j)) = ix1 q :=
    funext fun a => Fin.ext (by match a with | ⟨0, _⟩ => rfl)
  rw [e, v11_at x0 x2 kR aR h0 h2]

/-- The softmax weight at (q, j): the denominator is a positive real, so the quotient is the real quotient. -/
private theorem v14_at (x0 : FVec Ideal S65536x20 .f32) (x2 : FVec Ideal S1024x20 .f32)
    (kR : Fin 65536 → Fin 20 → ℝ) (aR : Fin 1024 → Fin 20 → ℝ)
    (h0 : ∀ j d, x0 (ix2 j d) = ((kR j d : ℝ) : EReal))
    (h2 : ∀ q d, x2 (ix2 q d) = ((aR q d : ℝ) : EReal)) (q : Fin 1024) (j : Fin 65536) :
    Read.val_main_v14 (F := Ideal) x0 x2 (ix2 q j)
      = ((Real.exp (score aR kR q j - emax (score aR kR q))
            / (∑ k, Real.exp (score aR kR q k - emax (score aR kR q))) : ℝ) : EReal) := by
  have hD : 0 < ∑ k, Real.exp (score aR kR q k - emax (score aR kR q)) :=
    Finset.sum_pos (fun k _ => Real.exp_pos _) ⟨⟨0, by norm_num⟩, Finset.mem_univ _⟩
  rw [Read.val_main_v14_apply, v10_at x0 x2 kR aR h0 h2, v13_at x0 x2 kR aR h0 h2, Ideal.hostDivf_def,
    Ideal.div_coe hD.ne', ← EReal.coe_mul, mul_one_div]
theorem ref_apply (x0 : FVec Ideal S65536x20 .f32) (x1 : FVec Ideal S65536x32 .f32) (x2 : FVec Ideal S1024x20 .f32)
    (kR : Fin 65536 → Fin 20 → ℝ) (vR : Fin 65536 → Fin 32 → ℝ) (aR : Fin 1024 → Fin 20 → ℝ)
    (h0 : ∀ j d, x0 (ix2 j d) = ((kR j d : ℝ) : EReal)) (h1 : ∀ j e, x1 (ix2 j e) = ((vR j e : ℝ) : EReal))
    (h2 : ∀ q d, x2 (ix2 q d) = ((aR q d : ℝ) : EReal)) (q : Fin 1024) (e : Fin 32) :
    Cert.ReferenceIdeal.Read.val_main_v15 (F := Ideal) x0 x1 x2 (ix2 q e)
      = ((∑ j, Real.exp (score aR kR q j - emax (score aR kR q))
            / (∑ k, Real.exp (score aR kR q k - emax (score aR kR q))) * vR j e : ℝ) : EReal) := by
  rw [Read.val_main_v15_apply, coe_sum]
  refine Finset.sum_congr rfl fun k _ => ?_
  have e1 : Read.lidx_main_v15 (ix2 q e) k = ix2 q k :=
    funext fun a => Fin.ext (by match a with | ⟨0, _⟩ => rfl | ⟨1, _⟩ => rfl)
  have e2 : Read.ridx_main_v15 (ix2 q e) k = ix2 k e :=
    funext fun a => Fin.ext (by match a with | ⟨0, _⟩ => rfl | ⟨1, _⟩ => rfl)
  rw [e1, e2, v14_at x0 x2 kR aR h0 h2, h1, EReal.coe_mul]

end Cert.Flash

end
-- ==== Proof.Finite.lean ====
/-
  From the precondition to real numbers: every entry of the three argument arrays has absolute value below +∞, so it is
  the cast of a real.
-/
import proofs.«115970_g62380105007505_cont_9to1_m_337_6_alg».proof.Proof.Gen.Pre_finite_inputs
import Idealize.ShloMosaic.Lib.ValueIdx
import Idealize.ShloMosaic.Lib.ReduceAll
import Idealize.ShloMosaic.PureOps.Ideal.Laws

noncomputable section

namespace Cert.Flash

open Idealize.ShloMosaic Idealize.ShloMosaic.ValueIdx Cert.Pre_finite_inputs

/-- The rank-0 index set has one element. -/
private instance subsingleton_scalar_idx : Subsingleton S_.Idx := ⟨fun a b => funext fun d => d.elim0⟩

/-- The pattern 0x7F800000 denotes +∞. -/
private theorem ofBits_inf : Ideal.ofBits .f32 0x7F800000#32 = (⊤ : EReal) := by
  simp [Ideal.ofBits, Ideal.ieee]

/-- An extended real whose absolute value max x (−x) is below +∞ is the cast of a real. -/
private theorem real_of_abs_lt_top (x : EReal) (h : max x (-x) < ⊤) : ∃ r : ℝ, x = ((r : ℝ) : EReal) := by
  induction x using EReal.rec with
  | bot => simp at h
  | coe r => exact ⟨r, rfl⟩
  | top => simp at h

/-- The element fact of the printed comparison: |x| < +∞ came out 1, so x is real. -/
private theorem real_of_cmp (x : Ideal .f32)
    (h : FloatOps.cmpf (F := Ideal) .olt (FloatOps.hostAbsf x) (FloatOps.ofBits .f32 0x7F800000#32) = 1#1) :
    ∃ r : ℝ, x = ((r : ℝ) : EReal) := by
  have h' : Ideal.cmp .olt (max x (-x)) (Ideal.ofBits .f32 0x7F800000#32) = 1#1 := h
  rw [ofBits_inf] at h'
  apply real_of_abs_lt_top
  by_contra hn
  simp [Ideal.cmp, hn] at h'

theorem real_of_pre (a0 : FVec Ideal S65536x20 .f32) (a1 : FVec Ideal S65536x32 .f32) (a2 : FVec Ideal S1024x20 .f32)
    (h : Cert.Pre_finite_inputs.fn (F := Ideal) a0 a1 a2 = fun _ => 1#1) :
    ∃ (kR : Fin 65536 → Fin 20 → ℝ) (vR : Fin 65536 → Fin 32 → ℝ) (aR : Fin 1024 → Fin 20 → ℝ),
      (∀ j d, a0 (ix2 j d) = ((kR j d : ℝ) : EReal)) ∧ (∀ j e, a1 (ix2 j e) = ((vR j e : ℝ) : EReal))
        ∧ (∀ q d, a2 (ix2 q d) = ((aR q d : ℝ) : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  have e0 : ∀ j d, ∃ r : ℝ, a0 (ix2 j d) = ((r : ℝ) : EReal) := fun j d =>
    real_of_cmp _ (Host.reduce_andi_all _ _ _ _ _ h0' (ix2 j d))
  have e1 : ∀ j e, ∃ r : ℝ, a1 (ix2 j e) = ((r : ℝ) : EReal) := fun j e =>
    real_of_cmp _ (Host.reduce_andi_all _ _ _ _ _ h1 (ix2 j e))
  have e2 : ∀ q d, ∃ r : ℝ, a2 (ix2 q d) = ((r : ℝ) : EReal) := fun q d =>
    real_of_cmp _ (Host.reduce_andi_all _ _ _ _ _ h2 (ix2 q d))
  choose kR hk using e0
  choose vR hv using e1
  choose aR ha using e2
  exact ⟨kR, vR, aR, hk, hv, ha⟩

end Cert.Flash

end
-- ==== Proof.lean ====
/-
  The certificate: a streamed ("online") softmax read of a memory of 65536 rows against the plain softmax read.

  The kernel scales the 1024 query rows by the temperature 10, appends a column of ones to the 32 value columns, and
  streams the memory in 16 blocks of 4096 rows, carrying per query row a running maximum of the scores and an
  accumulator `acc ← acc · exp (m_old − m_new) + exp (s − m_new) · [values, 1]`; after the last block the 32 value
  columns of the accumulator are divided by its column of ones.  The reference takes the softmax of the 65536 scaled
  scores of a row (with the row maximum subtracted) and multiplies by the value table.

  Under the precondition every input is the cast of a real number, so every intermediate of both programs is one too,
  and over the reals the two results are one number: the accumulator after block `t` is the sum over the blocks so far of
  `exp (s − m_t) · value` (because `exp (x − a) · exp (a − b) = exp (x − b)`), and a quotient of two such sums does not
  depend on the reference point `m_t`, so it equals the softmax-weighted mean taken at the row maximum.

  The three frames are the generated ones (the reference's is its generated run with the result dropped); the
  idealization rewrote nothing, so `preserves` is trivial.
-/
import proofs.«115970_g62380105007505_cont_9to1_m_337_6_alg».proof.Defs
import proofs.«115970_g62380105007505_cont_9to1_m_337_6_alg».proof.Proof.Gen.Kernel
import proofs.«115970_g62380105007505_cont_9to1_m_337_6_alg».proof.Proof.Gen.Kernel.Skeleton
import proofs.«115970_g62380105007505_cont_9to1_m_337_6_alg».proof.Proof.Gen.Kernel.Launch
import proofs.«115970_g62380105007505_cont_9to1_m_337_6_alg».proof.Proof.Gen.Kernel.Points
import proofs.«115970_g62380105007505_cont_9to1_m_337_6_alg».proof.Proof.Gen.Kernel.Frame
import proofs.«115970_g62380105007505_cont_9to1_m_337_6_alg».proof.Proof.Gen.KernelIdeal
import proofs.«115970_g62380105007505_cont_9to1_m_337_6_alg».proof.Proof.Gen.KernelIdeal.Skeleton
import proofs.«115970_g62380105007505_cont_9to1_m_337_6_alg».proof.Proof.Gen.KernelIdeal.Launch
import proofs.«115970_g62380105007505_cont_9to1_m_337_6_alg».proof.Proof.Gen.KernelIdeal.Points
import proofs.«115970_g62380105007505_cont_9to1_m_337_6_alg».proof.Proof.Gen.KernelIdeal.Frame
import proofs.«115970_g62380105007505_cont_9to1_m_337_6_alg».proof.Proof.Gen.ReferenceIdeal
import proofs.«115970_g62380105007505_cont_9to1_m_337_6_alg».proof.Proof.Gen.Pre_finite_inputs
import proofs.«115970_g62380105007505_cont_9to1_m_337_6_alg».proof.Proof.Gen.KernelIdeal.Value
import proofs.«115970_g62380105007505_cont_9to1_m_337_6_alg».proof.Proof.Gen.ReferenceIdeal.Run
import proofs.«115970_g62380105007505_cont_9to1_m_337_6_alg».proof.Proof.Gen.ReferenceIdeal.Read
import proofs.«115970_g62380105007505_cont_9to1_m_337_6_alg».proof.Proof.Final
import proofs.«115970_g62380105007505_cont_9to1_m_337_6_alg».proof.Proof.RefValue
import proofs.«115970_g62380105007505_cont_9to1_m_337_6_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same [1024, 32] array: entry (q, e) of either is the softmax of row `q`'s scaled scores
    weighted over value column `e`, a real number once the inputs are real. -/
theorem algebraic : Cert.algebraic_KernelIdeal_ReferenceIdeal := by
  intro m ρ m' ρ' hpre hagree
  refine ⟨fun c => Cert.Flash.result m c, Cert.Flash.run m ρ, ?_⟩
  refine (θ_run Cert.ReferenceIdeal.defs _ _).mono (fun _ h c => ⟨(h c).1.trans ?_, (h c).2⟩)
    (Cert.ReferenceIdeal.Value.run (F := Ideal) m' ρ')
  obtain ⟨kR, vR, aR, hK, hV, hA⟩ := Cert.Flash.real_of_pre _ _ _ (hpre c)
  rw [(hagree c).1, (hagree c).2.1, (hagree c).2.2, Cert.ReferenceIdeal.Read.val_main_v15_eq]
  funext y
  rw [ValueIdx.eq_ix2 y]
  exact (Cert.Flash.ref_apply _ _ _ kR vR aR hK hV hA (y 0) (y 1)).trans
    (Cert.Flash.result_apply m aR kR vR c hK hV hA (y 0) (y 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
